-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S32x16 .f32) (main_arg9 : FVec F S16 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x16 .f32) (main_arg9 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S16384x32 .f32) (main_arg1 : IVec S16384x16384 32) (main_arg2 : FVec F S32x32 .f32) (main_arg3 : FVec F S32 .f32) (main_arg4 : FVec F S32 .f32) (main_arg5 : FVec F S32 .f32) (main_arg6 : FVec F S32x32 .f32) (main_arg7 : FVec F S32 .f32) (main_arg8 : FVec F S32x16 .f32) (main_arg9 : FVec F S16 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S32x16 : Shape := ⟨2, ![32, 16]⟩
abbrev S16 : Shape := ⟨1, ![16]⟩
abbrev S1024x2048 : Shape := ⟨2, ![1024, 2048]⟩
abbrev S2048x32 : Shape := ⟨2, ![2048, 32]⟩
abbrev S1024x32 : Shape := ⟨2, ![1024, 32]⟩
abbrev S1x16 : Shape := ⟨2, ![1, 16]⟩
abbrev S1x32 : Shape := ⟨2, ![1, 32]⟩

abbrev nBuf : Space → Nat
  | .hbm => 12
  | .vmem => 16
  | .smem => 0
  | _ => 0

abbrev bufTy : (tb : Table) → Fin (tcTables nBuf tb) → BufTy
  | .hbm, ⟨0, _⟩ => ⟨S16384x32, .f32⟩
  | .hbm, ⟨1, _⟩ => ⟨S16384x16384, .i32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16384x32, .f32⟩
  | .hbm, ⟨11, _⟩ => ⟨S1x16, .f32⟩
  | .local _ .vmem, ⟨0, _⟩ => ⟨S1024x2048, .i32⟩
  | .local _ .vmem, ⟨1, _⟩ => ⟨S1024x2048, .i32⟩
  | .local _ .vmem, ⟨2, _⟩ => ⟨S16384x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S16384x32, .f32⟩
  | .local _ .vmem, ⟨7, _⟩ => ⟨S32x32, .f32⟩
  | .local _ .vmem, ⟨8, _⟩ => ⟨S32, .f32⟩
  | .local _ .vmem, ⟨9, _⟩ => ⟨S32, .f32⟩
  | .local _ .vmem, ⟨10, _⟩ => ⟨S32, .f32⟩
  | .local _ .vmem, ⟨11, _⟩ => ⟨S32x32, .f32⟩
  | .local _ .vmem, ⟨12, _⟩ => ⟨S32, .f32⟩
  | .local _ .vmem, ⟨13, _⟩ => ⟨S32x16, .f32⟩
  | .local _ .vmem, ⟨14, _⟩ => ⟨S16, .f32⟩
  | .local _ .vmem, ⟨15, _⟩ => ⟨S1x16, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg0 : BitVec 32 := BitVec.ofNat 32 (i 0).val
  let c2048_i32 : BitVec 32 := 2048#32
  let v19 : BitVec 32 := Scalar.muli arg0 c2048_i32
  v19
def k0_off2 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let v21 : Index := Scalar.indexCast v20
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16384x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  h_S1024x32 : 0 < S1024x32.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  reduces_S16384x32_S32 : S16384x32.Reduces [0] S32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  inb_S1x16_S1x16_0_0 : ∀ a, (![0, 0] : Fin 2 → Nat) a + S1x16.size a ≤ S1x16.size a
  h_S1x16 : 0 < S1x16.numel
  dot_S1024x2048_S1024x32_S2048x32_0_0_1_1_n_n_wf : DotDims.WF S1024x2048 S1024x32 S2048x32 [0] [0] [1] [1] [] []
  dot_S16384x32_S32x32_S16384x32_1_0_0_1_n_n_wf : DotDims.WF S16384x32 S32x32 S16384x32 [1] [0] [0] [1] [] []
  dot_S1x32_S32x16_S1x16_1_0_0_1_n_n_wf : DotDims.WF S1x32 S32x16 S1x16 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x32.size a ≤ S16384x32.size a
  k0_mult2_dvd : ∀ i : grid0.Coords, ∀ (k0_h2 : k0_cond2 i = 1#1), 2048 ∣ (k0_mult2 i).toNat
  k0_off2_inb : ∀ i : grid0.Coords, ∀ (k0_h2 : k0_cond2 i = 1#1), ∀ a, (k0_off2 i) a + S2048x32.size a ≤ S16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .i32 = 32 ∨ (Rect.block (s := S16384x16384) S1024x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16384x32.size a ≤ S16384x32.size a
  hwx1_0 : ∀ i : grid1.Coords, EltTy.bits .f32 = 32 ∨ (Rect.block (s := S16384x32) S16384x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x16.size a ≤ S32x16.size a
  hwx1_7 : ∀ i : grid1.Coords, EltTy.bits .f32 = 32 ∨ (Rect.block (s := S32x16) S32x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16.size a ≤ S16.size a
  hwx1_8 : ∀ i : grid1.Coords, EltTy.bits .f32 = 32 ∨ (Rect.block (s := S16) S16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)

variable [Facts₀]

def dot_S1024x2048_S1024x32_S2048x32_0_0_1_1_n_n : DotDims S1024x2048 S1024x32 S2048x32 where
  lhsContracting := [0]
  rhsContracting := [0]
  lhsNonContracting := [1]
  rhsNonContracting := [1]
  lhsBatch := []
  rhsBatch := []
  wf := dot_S1024x2048_S1024x32_S2048x32_0_0_1_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S16384x32.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x16.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S_ : Shape := ⟨0, ![]⟩
abbrev S1x16 : Shape := ⟨2, ![1, 16]⟩

abbrev nBuf : Space → Nat
  | .hbm => 66
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .i32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16384x16384, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S1x32, .f32⟩
  | .hbm, ⟨39, _⟩ => ⟨S16384x32, .f32⟩
  | .hbm, ⟨40, _⟩ => ⟨S16384x32, .f32⟩
  | .hbm, ⟨41, _⟩ => ⟨S1x32, .f32⟩
  | .hbm, ⟨42, _⟩ => ⟨S16384x32, .f32⟩
  | .hbm, ⟨43, _⟩ => ⟨S16384x32, .f32⟩
  | .hbm, ⟨44, _⟩ => ⟨S1x32, .f32⟩
  | .hbm, ⟨45, _⟩ => ⟨S16384x32, .f32⟩
  | .hbm, ⟨46, _⟩ => ⟨S16384x32, .f32⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S1x32, .f32⟩
  | .hbm, ⟨52, _⟩ => ⟨S16384x32, .f32⟩
  | .hbm, ⟨53, _⟩ => ⟨S16384x32, .f32⟩
  | .hbm, ⟨54, _⟩ => ⟨S_, .f32⟩
  | .hbm, ⟨55, _⟩ => ⟨S16384x32, .f32⟩
  | .hbm, ⟨56, _⟩ => ⟨S16384x32, .f32⟩
  | .hbm, ⟨57, _⟩ => ⟨S_, .f32⟩
  | .hbm, ⟨58, _⟩ => ⟨S32, .f32⟩
  | .hbm, ⟨59, _⟩ => ⟨S1x32, .f32⟩
  | .hbm, ⟨60, _⟩ => ⟨S_, .f32⟩
  | .hbm, ⟨61, _⟩ => ⟨S1x32, .f32⟩
  | .hbm, ⟨62, _⟩ => ⟨S1x32, .f32⟩
  | .hbm, ⟨63, _⟩ => ⟨S1x16, .f32⟩
  | .hbm, ⟨64, _⟩ => ⟨S1x16, .f32⟩
  | .hbm, ⟨65, _⟩ => ⟨S1x16, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_cst : Ref sig .tc := ⟨.hbm, 54, rfl⟩
abbrev main_call1_v0 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  reducesTo_S16384x32_S32_d0 : S16384x32.ReducesTo [0] S32
  h_S_ : 0 < S_.numel
  bcast_S_S32 : S_.BroadcastsInDim S32 (![] : Fin 0 → Fin S32.rank)
  bcast_S_S16384x32 : S_.BroadcastsInDim S16384x32 (![] : Fin 0 → Fin S16384x32.rank)
  bcast_S_S1x32 : S_.BroadcastsInDim S1x32 (![] : Fin 0 → Fin S1x32.rank)
  bcast_S16_S1x16_1 : S16.BroadcastsInDim S1x16 (![1] : Fin 1 → Fin S1x16.rank)
  dot_S16384x16384_S16384x32_S16384x32_0_0_1_1_n_n_wf : DotDims.WF S16384x16384 S16384x32 S16384x32 [0] [0] [1] [1] [] []
  dot_S16384x32_S32x32_S16384x32_1_0_0_1_n_n_wf : DotDims.WF S16384x32 S32x32 S16384x32 [1] [0] [0] [1] [] []
  dot_S1x32_S32x16_S1x16_1_0_0_1_n_n_wf : DotDims.WF S1x32 S32x16 S1x16 [1] [0] [0] [1] [] []

variable [Facts₀]

def dot_S16384x16384_S16384x32_S16384x32_0_0_1_1_n_n : DotDims S16384x16384 S16384x32 S16384x32 where
  lhsContracting := [0]
  rhsContracting := [0]
  lhsNonContracting := [1]
  rhsNonContracting := [1]
  lhsBatch := []
  rhsBatch := []
  wf := dot_S16384x16384_S16384x32_S16384x32_0_0_1_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf

class Facts : Prop extends Facts₀ where

variable [Facts]
-- ==== Proof.K.Blocks0.lean ====
/-
  Region 0 (the aggregation h = x + adjᵀ·x over an 8 × 16 grid), its data in closed form.

  Point t = 16·i + j holds the 1024 × 2048 block (j, i) of adj and the whole of x. The body adds to a
  2048 × 32 accumulator, zeroed where j = 0, the product (block of adj)ᵀ · (rows 1024·j … of x); where
  j = 15 it writes rows 2048·i … of x plus the accumulator into the output's block i.
  Everything here is a function of the region's entry contents and is read at any float instance.
-/
import proofs.«105560_j76570676953656_2_alg».proof.Proof.Gen.Kernel.Launch
import proofs.«105560_j76570676953656_2_alg».proof.Proof.Gen.Kernel.Skeleton
import proofs.«105560_j76570676953656_2_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's rectangles -/

/-- The whole adj block. -/
abbrev rAdj : Rect S1024x2048 := Rect.unit (s := S1024x2048) ![0, 0] S1024x2048.size inb_S1024x2048_S1024x2048_0_0
/-- The whole accumulator (and the whole output block: the same shape). -/
abbrev rAcc : Rect S2048x32 := Rect.unit (s := S2048x32) ![0, 0] S2048x32.size inb_S2048x32_S2048x32_0_0
/-- Rows 1024·j … 1024·j + 1023 of x: the contraction's slab at this point. -/
abbrev rSrc (i : grid0.Coords) : Rect S16384x32 := Rect.unit (s := S16384x32) (k0_off1 i) S1024x32.size (k0_off1_inb i)
/-- Rows 2048·i … 2048·i + 2047 of x: the residual's rows, read only where j = 15. -/
abbrev rDst (i : grid0.Coords) (h : k0_cond2 i = 1#1) : Rect S16384x32 := Rect.unit (s := S16384x32) (k0_off2 i) S2048x32.size (k0_off2_inb i h)

/-! ## The two conditions -/

/-- "j = 0", as the body computes it. -/
abbrev isFirst (i : grid0.Coords) : Prop :=
  Scalar.cmpi .ne (Scalar.extui (Scalar.cmpi .eq (BitVec.ofNat 32 (i 1).val) 0#32)) 0#32 = 1#1
/-- "j = 15", as the body computes it. -/
abbrev isLast (i : grid0.Coords) : Prop := k0_cond2 i = 1#1

/-- In point order j is the point's number modulo 16. -/
theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## One point's arithmetic -/

/-- The accumulator after the point's update, from the adj block, the whole of x and the accumulator before. -/
def accStep (i : grid0.Coords) (a : Vec F S1024x2048 .i32) (x : Vec F S16384x32 .f32) (s : Vec F S2048x32 .f32) : Vec F S2048x32 .f32 :=
  k0_pay2 (View.ld x (rSrc i)) a s
/-- The zeroed accumulator. -/
def accZero : Vec F S2048x32 .f32 := k0_pay1
/-- What the last point of a row of the grid stores into the output's block. -/
def outLast (i : grid0.Coords) (h : isLast i) (x : Vec F S16384x32 .f32) (s : Vec F S2048x32 .f32) : Vec F S2048x32 .f32 :=
  k0_pay3 (View.ld x (rDst i h)) s

/-! ## The blocks, from the region's entry contents -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adj block of point t, at its literal type. -/
abbrev aBlk (c : Dev nD) (t : Fin cfg0.N) : Vec F S1024x2048 .i32 := iblk0 V c 0 t
/-- The whole of x as window 1 stages it, at its literal type. -/
abbrev xBlk (c : Dev nD) (t : Fin cfg0.N) : Vec F S16384x32 .f32 := iblk0 V c 1 t

/-- THE ACCUMULATION: the accumulator after point n — zeroed first where n ≡ 0 (mod 16), else continued from the
    point before. -/
def accAt (c : Dev nD) : (n : ℕ) → n < cfg0.N → Vec F S2048x32 .f32
  | 0, hn => accStep (grid0.coords ⟨0, hn⟩) (aBlk V c ⟨0, hn⟩) (xBlk V c ⟨0, hn⟩) accZero
  | n + 1, hn =>
    accStep (grid0.coords ⟨n + 1, hn⟩) (aBlk V c ⟨n + 1, hn⟩) (xBlk V c ⟨n + 1, hn⟩)
      (if (n + 1) % 16 = 0 then accZero else accAt c n (Nat.lt_of_succ_lt hn))

theorem accAt_first (c : Dev nD) (t : Fin cfg0.N) (h : t.val % 16 = 0) :
    accAt V c t.val t.isLt = accStep (grid0.coords t) (aBlk V c t) (xBlk V c t) accZero := by
  obtain ⟨n, hn⟩ := t
  cases n with
  | zero => rfl
  | succ n =>
    have e : accAt V c (n + 1) hn = accStep (grid0.coords ⟨n + 1, hn⟩) (aBlk V c ⟨n + 1, hn⟩) (xBlk V c ⟨n + 1, hn⟩)
        (if (n + 1) % 16 = 0 then accZero else accAt V c n (Nat.lt_of_succ_lt hn)) := rfl
    rw [e, if_pos h]

theorem accAt_next (c : Dev nD) (t : Fin cfg0.N) (h : ¬ t.val % 16 = 0) :
    accAt V c t.val t.isLt = accStep (grid0.coords t) (aBlk V c t) (xBlk V c t)
      (accAt V c (t.val - 1) (Nat.lt_of_le_of_lt (Nat.sub_le _ _) t.isLt)) := by
  obtain ⟨n, hn⟩ := t
  cases n with
  | zero => exact absurd (Nat.zero_mod _) h
  | succ n =>
    have e : accAt V c (n + 1) hn = accStep (grid0.coords ⟨n + 1, hn⟩) (aBlk V c ⟨n + 1, hn⟩) (xBlk V c ⟨n + 1, hn⟩)
        (if (n + 1) % 16 = 0 then accZero else accAt V c n (Nat.lt_of_succ_lt hn)) := rfl
    rw [e, if_neg h]; rfl

/-- What point t leaves in the output's staging buffer where it stores it (j = 15); elsewhere the body stores nothing
    there and this value is consulted by no one. -/
def outAt (c : Dev nD) (t : Fin cfg0.N) : Vec F S2048x32 .f32 :=
  if h : isLast (grid0.coords t) then outLast (grid0.coords t) h (xBlk V c t) (accAt V c t.val t.isLt)
  else accAt V c t.val t.isLt

end Cert.Kernel.Hand

end
-- ==== Proof.K.Body0.lean ====
/-
  Region 0's body, run once per control case. The two conditions are "j = 0" and "j = 15"; the grid meets three
  assignments: the first point of a grid row (the accumulator is zeroed, then updated), an inner point (updated),
  the last point (updated, then rows of x plus the accumulator stored to the output block). Each run is stated over
  the four memrefs at known contents and ends with them at the closed forms of Blocks0.
-/
import proofs.«105560_j76570676953656_2_alg».proof.Proof.K.Blocks0
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of rank 2, as the function the library's lemmas ask for. -/
theorem off00 : (![0, 0] : Fin 2 → ℕ) = fun _ => 0 := by
  funext a; match a with | ⟨0, _⟩ => rfl | ⟨1, _⟩ => rfl

/-- One store through the whole rectangle covers the accumulator. -/
theorem coverAcc (p : Vec F S2048x32 .f32) (L : List (View.Piece (Elt F) S2048x32 .f32)) (y : S2048x32.Idx) :
    ∃ pc ∈ ((⟨rAcc, p⟩ : View.Piece (Elt F) S2048x32 .f32) :: L), y ∈ pc.1.set :=
  ⟨_, List.mem_cons_self, View.mem_set_unit_zero off00 inb_S2048x32_S2048x32_0_0 y⟩

set_option maxHeartbeats 2000000 in
/-- An inner point (0 < j < 15): the accumulator is updated; the output's buffer is handed back as found. -/
theorem runInner (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : ¬ isFirst i) (hc2 : ¬ isLast i)
    (a : Vec F S1024x2048 .i32) (x : Vec F S16384x32 .f32) (o : Vec F S2048x32 .f32) (s : Vec F S2048x32 .f32) (K : PUnit → sProp 𝕄) :
    iprop(owns (c : Thread nD τ) arg2 fullShare a ∗ owns (c : Thread nD τ) arg3 fullShare x ∗ owns (c : Thread nD τ) arg4 fullShare o
        ∗ owns (c : Thread nD τ) arg5 fullShare s
        ∗ (iprop(owns (c : Thread nD τ) arg2 fullShare a ∗ owns (c : Thread nD τ) arg3 fullShare x ∗ owns (c : Thread nD τ) arg4 fullShare o
            ∗ owns (c : Thread nD τ) arg5 fullShare (accStep i a x s)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%f4, %hf4, H4⟩, ⟨%f5, %hf5, H5⟩, Hk⟩
  subst hf0 hf1 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  rw [View.read_writes_eq_canon _ _ _ (coverAcc _ _), View.canon_unit_zero off00]
  simp only [View.readAt_eq_ld, View.ld_unit_zero (S := S1024x2048) off00, View.ld_unit_zero (S := S2048x32) off00]
  rfl

set_option maxHeartbeats 2000000 in
/-- The first point of a grid row (j = 0): the accumulator, whatever it held, is zeroed and then updated. -/
theorem runFirst (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : isFirst i) (hc2 : ¬ isLast i)
    (a : Vec F S1024x2048 .i32) (x : Vec F S16384x32 .f32) (o : Vec F S2048x32 .f32) (K : PUnit → sProp 𝕄) :
    iprop(owns (c : Thread nD τ) arg2 fullShare a ∗ owns (c : Thread nD τ) arg3 fullShare x ∗ owns (c : Thread nD τ) arg4 fullShare o
        ∗ (∃ s, owns (c : Thread nD τ) arg5 fullShare s)
        ∗ (iprop(owns (c : Thread nD τ) arg2 fullShare a ∗ owns (c : Thread nD τ) arg3 fullShare x ∗ owns (c : Thread nD τ) arg4 fullShare o
            ∗ owns (c : Thread nD τ) arg5 fullShare (accStep i a x accZero)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%f4, %hf4, H4⟩, ⟨%s, %f5, -, H5⟩, Hk⟩
  subst hf0 hf1 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  sl_unfold_words
  rw [View.read_writes_eq_canon _ _ _ (coverAcc _ _), View.canon_cons_unit_zero off00]
  simp only [View.readAt_eq_ld, View.ld_unit_zero (S := S1024x2048) off00, View.readCov_unit_zero (S := S2048x32) _ off00]
  rfl

set_option maxHeartbeats 2000000 in
/-- The last point of a grid row (j = 15): the accumulator is updated, and the output's buffer, whatever it held, takes
    rows 2048·i … of x plus the accumulator. -/
theorem runLast (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : ¬ isFirst i) (hc2 : isLast i)
    (a : Vec F S1024x2048 .i32) (x : Vec F S16384x32 .f32) (s : Vec F S2048x32 .f32) (K : PUnit → sProp 𝕄) :
    iprop(owns (c : Thread nD τ) arg2 fullShare a ∗ owns (c : Thread nD τ) arg3 fullShare x ∗ (∃ o, owns (c : Thread nD τ) arg4 fullShare o)
        ∗ owns (c : Thread nD τ) arg5 fullShare s
        ∗ (iprop(owns (c : Thread nD τ) arg2 fullShare a ∗ owns (c : Thread nD τ) arg3 fullShare x
            ∗ owns (c : Thread nD τ) arg4 fullShare (outLast i hc2 x (accStep i a x s))
            ∗ owns (c : Thread nD τ) arg5 fullShare (accStep i a x s)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%o, %f4, -, H4⟩, ⟨%f5, %hf5, H5⟩, Hk⟩
  subst hf0 hf1 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (coverAcc _ _), View.canon_unit_zero off00]
    simp only [View.readAt_eq_ld, View.ld_unit_zero (S := S1024x2048) off00, View.ld_unit_zero (S := S2048x32) off00,
      View.readCov_unit_zero (S := S2048x32) _ off00]
    rfl
  iexists _; isplitr
  swap; · iexact H5
  ipureintro
  sl_unfold_words
  rw [View.read_writes_eq_canon _ _ _ (coverAcc _ _), View.canon_unit_zero off00]
  simp only [View.readAt_eq_ld, View.ld_unit_zero (S := S1024x2048) off00, View.ld_unit_zero (S := S2048x32) off00]
  rfl

end Cert.Kernel.Hand

end
-- ==== Proof.K.Dat0.lean ====
/-
  Region 0's proof data. The arrays are the region's entry contents; after the body at point t the two inputs' staging
  buffers hold their blocks and the output's holds (where j = 15) rows of x plus the accumulator; the region's invariant
  carries the accumulator at what the point before left in it, the core's other scoped buffers at anything and the
  generator register at some state. The body obligation is a case split on j = 0, 0 < j < 15, j = 15.
-/
import proofs.«105560_j76570676953656_2_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The accumulator's buffer as a memref. -/
abbrev accM : Memref sig .tc .vmem S2048x32 .f32 := Memref.whole cc0_scratch0

/-- The core's scoped buffers that region 0 neither stages nor names (region 1's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- What the launch hands the region: the accumulator at anything, the other scoped buffers, the generator register. -/
theorem PhiA_eq (c : Dev nD) :
    (Pipeline.ΦA spec0 c : sProp 𝕄)
      = iprop(((∃ d, owns (c : Thread nD τ) accM fullShare d) ∗ others (F := F) c) ∗ (∃ r, prngReg c r)) := by
  unfold Pipeline.ΦA others; rw [scopedRest0_eq]; simp only [accM, owns_whole]; try rfl

/-- The invariant before position n: before the first point what the launch hands over; afterwards the accumulator at
    what point n − 1 left. -/
def PhiAcc (c : Dev nD) : (n : ℕ) → n ≤ cfg0.N → sProp 𝕄
  | 0, _ => Pipeline.ΦA spec0 c
  | n + 1, hn => iprop((owns (c : Thread nD τ) accM fullShare (accAt V c n hn) ∗ others (F := F) c) ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop((owns (c : Thread nD τ) accM fullShare (accAt V c n hn) ∗ others (F := F) c) ∗ (∃ r, prngReg c r)) := rfl
theorem PhiAcc_pos (c : Dev nD) (n : ℕ) (h : n ≤ cfg0.N) (hz : n ≠ 0) :
    PhiAcc V c n h = iprop((owns (c : Thread nD τ) accM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem Phi_castSucc (c : Dev nD) (t : Fin cfg0.N) :
    (dat0 V c).Φ t.castSucc = PhiAcc V c t.val (Nat.le_of_lt t.isLt) := by
  dsimp only [dat0]; simp only [Fin.coe_castSucc]

/-- An input's current staging buffer holds its block at every point, fetched there or not: the body leaves it in
    place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Where the output's window is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ isLast (grid0.coords t) → cfg0.idle 2 (grid0.coords t) = true := by decide +kernel
theorem live2 : ∀ t : Fin cfg0.N, isLast (grid0.coords t) → cfg0.idle 2 (grid0.coords t) = false := by decide +kernel
theorem noFlush2 : ∀ t : Fin cfg0.N, ¬ isLast (grid0.coords t) → (cfg0.win 2).flush t = false := by decide +kernel

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 128 := lt_of_lt_of_eq t.isLt (show cfg0.N = 128 from N_0)
  by_cases h0 : t.val % 16 = 0
  · -- the first point of a grid row
    have hF : isFirst (grid0.coords t) := (isFirst_iff t).mpr h0
    have hL : ¬ isLast (grid0.coords t) := fun h => by have := (isLast_iff t).mp h; omega
    rw [Dat.leavesExact_idle (dat0 V c) 2 t (idle2 t hL) (noFlush2 t hL)]
    rw [accAt_first V c t h0]
    by_cases hz : t.val = 0
    · rw [Phi_castSucc V c t, PhiAcc_zero V c _ _ hz, PhiA_eq]
      iintro ⟨⟨⟨HS, HR⟩, Hg⟩, Ho, ⟨%d0, H0⟩, ⟨%d1, H1⟩, ⟨%d2, H2⟩⟩
      iapply (runFirst c Set.univ (grid0.coords t) _ _ _ _ _ _ _ _ hF hL (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi_castSucc V c t, PhiAcc_pos V c _ _ hz]
      iintro ⟨⟨⟨HS, HR⟩, Hg⟩, Ho, ⟨%d0, H0⟩, ⟨%d1, H1⟩, ⟨%d2, H2⟩⟩
      iapply (runFirst c Set.univ (grid0.coords t) _ _ _ _ _ _ _ _ hF hL (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hF : ¬ isFirst (grid0.coords t) := fun h => h0 ((isFirst_iff t).mp h)
    have hz : t.val ≠ 0 := fun e => h0 (by rw [e])
    rw [accAt_next V c t h0]
    rw [Phi_castSucc V c t, PhiAcc_pos V c _ _ hz]
    by_cases h1 : t.val % 16 = 15
    · -- the last point of a grid row
      have hL : isLast (grid0.coords t) := (isLast_iff t).mpr h1
      rw [show (dat0 V c).leavesExact 2 t = owns (c : Thread nD τ) (st0_2 t) fullShare ((dat0 V c).after 2 t) from by
        unfold Dat.leavesExact; rw [live2 t hL], after0_2]
      rw [show outAt V c t = outLast (grid0.coords t) hL (xBlk V c t) (accAt V c t.val t.isLt) from dif_pos hL, accAt_next V c t h0]
      iintro ⟨⟨⟨HS, HR⟩, Hg⟩, Ho, ⟨%d0, H0⟩, ⟨%d1, H1⟩, ⟨%d2, H2⟩⟩
      iapply (runLast c Set.univ (grid0.coords t) _ _ _ _ _ _ _ _ hF hL (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- an inner point
      have hL : ¬ isLast (grid0.coords t) := fun h => h1 ((isLast_iff t).mp h)
      rw [Dat.leavesExact_idle (dat0 V c) 2 t (idle2 t hL) (noFlush2 t hL)]
      iintro ⟨⟨⟨HS, HR⟩, Hg⟩, Ho, ⟨%d0, H0⟩, ⟨%d1, H1⟩, ⟨%d2, H2⟩⟩
      iapply (runInner c Set.univ (grid0.coords t) _ _ _ _ _ _ _ _ hF hL (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point; after the last point the invariant
    gives it back, the accumulator's contents forgotten. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 128 := N_0; omega), PhiA_eq]
  iintro ⟨⟨HS, HR⟩, Hg⟩
  isplitl [HS HR]
  · isplitl [HS]; · iexists _; iexact HS
    iexact HR
  iexact Hg

end Cert.Kernel.Hand

end
-- ==== Proof.K.Blocks1.lean ====
/-
  Region 1 (Linear → BatchNorm with batch statistics → ReLU → Linear → ReLU → mean over the 16384 rows → Linear),
  one grid point, every operand staged whole. What the point stores into the 1 × 16 result, as one function of
  the nine operands, read at any float instance.
-/
import proofs.«105560_j76570676953656_2_alg».proof.Proof.Gen.Kernel.Launch
import proofs.«105560_j76570676953656_2_alg».proof.Proof.Gen.Kernel.Skeleton
import proofs.«105560_j76570676953656_2_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The result block from the aggregated features h and the eight parameters: the body's arithmetic, its first sixty
    statements (up to the second ReLU's operands) a part of their own. -/
def mlpOut (h : Vec F S16384x32 .f32) (W1 : Vec F S32x32 .f32) (b1 g be : Vec F S32 .f32) (W2 : Vec F S32x32 .f32)
    (b2 : Vec F S32 .f32) (Wf : Vec F S32x16 .f32) (bf : Vec F S16 .f32) : Vec F S1x16 .f32 :=
  k1_pay1 (k1_pay2 h W1 b1 g be) (k1_pay3 W2) (constant S16384x32 .f32 0x00000000#32) b2 Wf bf

variable (V : (c : Dev nD) → (b : Ref sig .tc) → Buf (Elt F) ((c : Thread nD τ).loc b))

/-- Window w's block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the point leaves in the result's staging buffer. -/
def out1 (c : Dev nD) (t : Fin cfg1.N) : Vec F S1x16 .f32 :=
  mlpOut (iblk1 V c 0 t) (iblk1 V c 1 t) (iblk1 V c 2 t) (iblk1 V c 3 t) (iblk1 V c 4 t) (iblk1 V c 5 t) (iblk1 V c 6 t)
    (iblk1 V c 7 t) (iblk1 V c 8 t)

end Cert.Kernel.Hand

end
-- ==== Proof.K.Body1.lean ====
/-
  Region 1's body: its one run. Every operand's staging buffer is read whole; the result's buffer, whatever it held, ends
  at the closed form of Blocks1.
-/
import proofs.«105560_j76570676953656_2_alg».proof.Proof.K.Blocks1
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, rank 2 and rank 1, as the function the library's lemmas ask for. -/
theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

/-- The one store through the whole rectangle covers the result block. -/
theorem coverOut (p : Vec F S1x16 .f32) (y : S1x16.Idx) :
    ∃ pc ∈ ([⟨Rect.unit (s := S1x16) ![0, 0] S1x16.size inb_S1x16_S1x16_0_0, p⟩] : List (View.Piece (Elt F) S1x16 .f32)), y ∈ pc.1.set :=
  ⟨_, List.mem_singleton_self _, View.mem_set_unit_zero zero2 inb_S1x16_S1x16_0_0 y⟩

set_option maxHeartbeats 4000000 in
theorem runMlp (c : Dev nD) (E : Set ℕ) (i : grid1.Coords)
    (arg1 : Memref sig .tc .vmem S16384x32 .f32) (harg1 : arg1.IsWhole) (arg2 : Memref sig .tc .vmem S32x32 .f32) (harg2 : arg2.IsWhole)
    (arg3 : Memref sig .tc .vmem S32 .f32) (harg3 : arg3.IsWhole) (arg4 : Memref sig .tc .vmem S32 .f32) (harg4 : arg4.IsWhole)
    (arg5 : Memref sig .tc .vmem S32 .f32) (harg5 : arg5.IsWhole) (arg6 : Memref sig .tc .vmem S32x32 .f32) (harg6 : arg6.IsWhole)
    (arg7 : Memref sig .tc .vmem S32 .f32) (harg7 : arg7.IsWhole) (arg8 : Memref sig .tc .vmem S32x16 .f32) (harg8 : arg8.IsWhole)
    (arg9 : Memref sig .tc .vmem S16 .f32) (harg9 : arg9.IsWhole) (arg10 : Memref sig .tc .vmem S1x16 .f32) (harg10 : arg10.IsWhole)
    (x0 : Vec F S16384x32 .f32) (x1 : Vec F S32x32 .f32) (x2 x3 x4 : Vec F S32 .f32) (x5 : Vec F S32x32 .f32) (x6 : Vec F S32 .f32)
    (x7 : Vec F S32x16 .f32) (x8 : Vec F S16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare (mlpOut x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (coverOut _), View.canon_unit_zero zero2]
  simp only [View.readAt_eq_ld, View.ld_unit_zero (S := S16384x32) zero2, View.ld_unit_zero (S := S32x32) zero2,
    View.ld_unit_zero (S := S32x16) zero2, View.ld_unit_zero (S := S32) zero1, View.ld_unit_zero (S := S16) zero1]
  rfl

end Cert.Kernel.Hand

end
-- ==== Proof.K.Dat1.lean ====
/-
  Region 1's proof data: one grid point; each of the nine operands' staging buffers holds its whole array, the result's
  ends at the closed form of Blocks1; the invariant is the core's scoped rest and generator register, untouched.
-/
import proofs.«105560_j76570676953656_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]

/-- Each operand's staging buffer holds its block (the whole array) when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runMlp c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the one point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as two kernel regions, and its run.

  Between two regions the TensorCore holds every unscoped buffer at known contents: at launch the memory's; after region 0
  the same but for the aggregated features' array, at what the region's write-backs leave; after region 1 the same but for
  the result's array. One launch over the two regions then says: every weakly fair execution terminates, nothing faults,
  and every unscoped buffer ends at the last of these contents. The frame (each argument as launched) and the value
  (the result's array) are both read off that.
-/
import proofs.«105560_j76570676953656_2_alg».proof.Proof.K.Dat0
import proofs.«105560_j76570676953656_2_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m ((c : Dev nD), b)
/-- The same read at the TensorCore's references: what region 0's proof data take. -/
abbrev Ve0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what region 1's proof data take. -/
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (Ve1 m) c).arrAt w cfg1.N
theorem W2_arr (c : Dev nD) (w : Fin cfg1.W) :
    W2 m c (Proc.devRef .tc (Pipeline.arrRef spec1 w)) = (dat1 (Ve1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Ve2 : (c : Dev nD) → (b : Ref sig .tc) → Buf (Elt F) ((c : Thread nD τ).loc b) := fun c b => W2 m c b
theorem hF1 (c : Dev nD) (w : Fin cfg1.W) : (dat1 (Ve1 m) c).arrAt w cfg1.N = Ve2 m c (Pipeline.arrRef spec1 w) :=
  (W2_arr m c w).symm
theorem hrest1 (c : Dev nD) : ∀ b, b ∉ Finset.univ.image (Pipeline.arrRef spec1) → Ve2 m c b = Ve1 m c b :=
  fun b hb => W2_of_ne m c b fun w e => hb (Finset.mem_image.mpr ⟨w, Finset.mem_univ _, e⟩)

/-! ## The arguments end as launched: a region reads an argument through an input window or passes it by -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (Ve0 m) c).arrAt_in 1 rfl _).trans (A_eq0 (Ve0 m) c 1))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (Ve1 m) c).arrAt_in 1 rfl _).trans (A_eq1 (Ve1 m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := (W2_arr m c 2).trans (((dat1 (Ve1 m) c).arrAt_in 2 rfl _).trans (A_eq1 (Ve1 m) c 2))
    _ = W0 m c (Proc.devRef .tc main_arg3) := W1_of_ne m c main_arg3 (by decide)
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := (W2_arr m c 3).trans (((dat1 (Ve1 m) c).arrAt_in 3 rfl _).trans (A_eq1 (Ve1 m) c 3))
    _ = W0 m c (Proc.devRef .tc main_arg4) := W1_of_ne m c main_arg4 (by decide)
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := (W2_arr m c 4).trans (((dat1 (Ve1 m) c).arrAt_in 4 rfl _).trans (A_eq1 (Ve1 m) c 4))
    _ = W0 m c (Proc.devRef .tc main_arg5) := W1_of_ne m c main_arg5 (by decide)
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := (W2_arr m c 5).trans (((dat1 (Ve1 m) c).arrAt_in 5 rfl _).trans (A_eq1 (Ve1 m) c 5))
    _ = W0 m c (Proc.devRef .tc main_arg6) := W1_of_ne m c main_arg6 (by decide)
    _ = m ((c : Thread nD τ).loc main_arg6) := rfl
theorem W2_main_arg7 (c : Dev nD) : W2 m c (Proc.devRef .tc main_arg7) = m ((c : Thread nD τ).loc main_arg7) :=
  calc W2 m c (Proc.devRef .tc main_arg7)
    _ = W1 m c (Proc.devRef .tc main_arg7) := (W2_arr m c 6).trans (((dat1 (Ve1 m) c).arrAt_in 6 rfl _).trans (A_eq1 (Ve1 m) c 6))
    _ = W0 m c (Proc.devRef .tc main_arg7) := W1_of_ne m c main_arg7 (by decide)
    _ = m ((c : Thread nD τ).loc main_arg7) := rfl
theorem W2_main_arg8 (c : Dev nD) : W2 m c (Proc.devRef .tc main_arg8) = m ((c : Thread nD τ).loc main_arg8) :=
  calc W2 m c (Proc.devRef .tc main_arg8)
    _ = W1 m c (Proc.devRef .tc main_arg8) := (W2_arr m c 7).trans (((dat1 (Ve1 m) c).arrAt_in 7 rfl _).trans (A_eq1 (Ve1 m) c 7))
    _ = W0 m c (Proc.devRef .tc main_arg8) := W1_of_ne m c main_arg8 (by decide)
    _ = m ((c : Thread nD τ).loc main_arg8) := rfl
theorem W2_main_arg9 (c : Dev nD) : W2 m c (Proc.devRef .tc main_arg9) = m ((c : Thread nD τ).loc main_arg9) :=
  calc W2 m c (Proc.devRef .tc main_arg9)
    _ = W1 m c (Proc.devRef .tc main_arg9) := (W2_arr m c 8).trans (((dat1 (Ve1 m) c).arrAt_in 8 rfl _).trans (A_eq1 (Ve1 m) c 8))
    _ = W0 m c (Proc.devRef .tc main_arg9) := W1_of_ne m c main_arg9 (by decide)
    _ = m ((c : Thread nD τ).loc main_arg9) := rfl

/-- The result's array ends at what region 1's one write-back leaves. -/
theorem W2_main_v1 (c : Dev nD) : W2 m c (Proc.devRef .tc main_v1) = (dat1 (Ve1 m) c).arrAt 9 cfg1.N := W2_arr m c 9
/-- Region 1 finds the aggregated features at what region 0's write-backs leave. -/
theorem Ve1_main_v0 (c : Dev nD) : Ve1 m c main_v0 = (dat0 (Ve0 m) c).arrAt 2 cfg0.N := W1_arr m c 2
/-- Region 1 finds a parameter as launched. -/
theorem Ve1_main_arg2 (c : Dev nD) : Ve1 m c main_arg2 = m ((c : Thread nD τ).loc main_arg2) := W1_of_ne m c main_arg2 (by decide)
theorem Ve1_main_arg3 (c : Dev nD) : Ve1 m c main_arg3 = m ((c : Thread nD τ).loc main_arg3) := W1_of_ne m c main_arg3 (by decide)
theorem Ve1_main_arg4 (c : Dev nD) : Ve1 m c main_arg4 = m ((c : Thread nD τ).loc main_arg4) := W1_of_ne m c main_arg4 (by decide)
theorem Ve1_main_arg5 (c : Dev nD) : Ve1 m c main_arg5 = m ((c : Thread nD τ).loc main_arg5) := W1_of_ne m c main_arg5 (by decide)
theorem Ve1_main_arg6 (c : Dev nD) : Ve1 m c main_arg6 = m ((c : Thread nD τ).loc main_arg6) := W1_of_ne m c main_arg6 (by decide)
theorem Ve1_main_arg7 (c : Dev nD) : Ve1 m c main_arg7 = m ((c : Thread nD τ).loc main_arg7) := W1_of_ne m c main_arg7 (by decide)
theorem Ve1_main_arg8 (c : Dev nD) : Ve1 m c main_arg8 = m ((c : Thread nD τ).loc main_arg8) := W1_of_ne m c main_arg8 (by decide)
theorem Ve1_main_arg9 (c : Dev nD) : Ve1 m c main_arg9 = m ((c : Thread nD τ).loc main_arg9) := W1_of_ne m c main_arg9 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (Ve0 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]

set_option backward.isDefEq.respectTransparency.types false in
/-- Every weakly fair execution of the program from memory m with zero counters terminates, and every unscoped buffer
    of every TensorCore ends at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float instance: every weakly fair execution terminates, nothing faults, and each of the ten
    argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c),
    (h c _ (mem_uc main_arg7 (by decide))).trans (W2_main_arg7 m c),
    (h c _ (mem_uc main_arg8 (by decide))).trans (W2_main_arg8 m c),
    (h c _ (mem_uc main_arg9 (by decide))).trans (W2_main_arg9 m c)⟩) (run_all m ρ)

/-- THE RUN WITH THE RESULT NAMED: besides the frame, the result's array ends at what region 1's write-back leaves. -/
theorem run_value : θ_run defs (onTc (τ := τ) (main (F := F))) ⟨m, fun _ => 0, ρ⟩ (fun r => ∀ c : Dev nD,
      r.2.mem ((c.tc : Thread nD τ).loc main_v1) = (dat1 (Ve1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v1 (by decide))).trans (W2_main_v1 m c), (h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c),
    (h c _ (mem_uc main_arg7 (by decide))).trans (W2_main_arg7 m c),
    (h c _ (mem_uc main_arg8 (by decide))).trans (W2_main_arg8 m c),
    (h c _ (mem_uc main_arg9 (by decide))).trans (W2_main_arg9 m c)⟩) (run_all m ρ)

end Cert.Kernel.Hand

end
-- ==== Proof.KI.Blocks0.lean ====
/-
  Region 0 (the aggregation h = x + adjᵀ·x over an 8 × 16 grid), its data in closed form.

  Point t = 16·i + j holds the 1024 × 2048 block (j, i) of adj and the whole of x. The body adds to a
  2048 × 32 accumulator, zeroed where j = 0, the product (block of adj)ᵀ · (rows 1024·j … of x); where
  j = 15 it writes rows 2048·i … of x plus the accumulator into the output's block i.
  Everything here is a function of the region's entry contents and is read at any float instance.
-/
import proofs.«105560_j76570676953656_2_alg».proof.Proof.Gen.KernelIdeal.Launch
import proofs.«105560_j76570676953656_2_alg».proof.Proof.Gen.KernelIdeal.Skeleton
import proofs.«105560_j76570676953656_2_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's rectangles -/

/-- The whole adj block. -/
abbrev rAdj : Rect S1024x2048 := Rect.unit (s := S1024x2048) ![0, 0] S1024x2048.size inb_S1024x2048_S1024x2048_0_0
/-- The whole accumulator (and the whole output block: the same shape). -/
abbrev rAcc : Rect S2048x32 := Rect.unit (s := S2048x32) ![0, 0] S2048x32.size inb_S2048x32_S2048x32_0_0
/-- Rows 1024·j … 1024·j + 1023 of x: the contraction's slab at this point. -/
abbrev rSrc (i : grid0.Coords) : Rect S16384x32 := Rect.unit (s := S16384x32) (k0_off1 i) S1024x32.size (k0_off1_inb i)
/-- Rows 2048·i … 2048·i + 2047 of x: the residual's rows, read only where j = 15. -/
abbrev rDst (i : grid0.Coords) (h : k0_cond2 i = 1#1) : Rect S16384x32 := Rect.unit (s := S16384x32) (k0_off2 i) S2048x32.size (k0_off2_inb i h)

/-! ## The two conditions -/

/-- "j = 0", as the body computes it. -/
abbrev isFirst (i : grid0.Coords) : Prop :=
  Scalar.cmpi .ne (Scalar.extui (Scalar.cmpi .eq (BitVec.ofNat 32 (i 1).val) 0#32)) 0#32 = 1#1
/-- "j = 15", as the body computes it. -/
abbrev isLast (i : grid0.Coords) : Prop := k0_cond2 i = 1#1

/-- In point order j is the point's number modulo 16. -/
theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## One point's arithmetic -/

/-- The accumulator after the point's update, from the adj block, the whole of x and the accumulator before. -/
def accStep (i : grid0.Coords) (a : Vec F S1024x2048 .i32) (x : Vec F S16384x32 .f32) (s : Vec F S2048x32 .f32) : Vec F S2048x32 .f32 :=
  k0_pay2 (View.ld x (rSrc i)) a s
/-- The zeroed accumulator. -/
def accZero : Vec F S2048x32 .f32 := k0_pay1
/-- What the last point of a row of the grid stores into the output's block. -/
def outLast (i : grid0.Coords) (h : isLast i) (x : Vec F S16384x32 .f32) (s : Vec F S2048x32 .f32) : Vec F S2048x32 .f32 :=
  k0_pay3 (View.ld x (rDst i h)) s

/-! ## The blocks, from the region's entry contents -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adj block of point t, at its literal type. -/
abbrev aBlk (c : Dev nD) (t : Fin cfg0.N) : Vec F S1024x2048 .i32 := iblk0 V c 0 t
/-- The whole of x as window 1 stages it, at its literal type. -/
abbrev xBlk (c : Dev nD) (t : Fin cfg0.N) : Vec F S16384x32 .f32 := iblk0 V c 1 t

/-- THE ACCUMULATION: the accumulator after point n — zeroed first where n ≡ 0 (mod 16), else continued from the
    point before. -/
def accAt (c : Dev nD) : (n : ℕ) → n < cfg0.N → Vec F S2048x32 .f32
  | 0, hn => accStep (grid0.coords ⟨0, hn⟩) (aBlk V c ⟨0, hn⟩) (xBlk V c ⟨0, hn⟩) accZero
  | n + 1, hn =>
    accStep (grid0.coords ⟨n + 1, hn⟩) (aBlk V c ⟨n + 1, hn⟩) (xBlk V c ⟨n + 1, hn⟩)
      (if (n + 1) % 16 = 0 then accZero else accAt c n (Nat.lt_of_succ_lt hn))

theorem accAt_first (c : Dev nD) (t : Fin cfg0.N) (h : t.val % 16 = 0) :
    accAt V c t.val t.isLt = accStep (grid0.coords t) (aBlk V c t) (xBlk V c t) accZero := by
  obtain ⟨n, hn⟩ := t
  cases n with
  | zero => rfl
  | succ n =>
    have e : accAt V c (n + 1) hn = accStep (grid0.coords ⟨n + 1, hn⟩) (aBlk V c ⟨n + 1, hn⟩) (xBlk V c ⟨n + 1, hn⟩)
        (if (n + 1) % 16 = 0 then accZero else accAt V c n (Nat.lt_of_succ_lt hn)) := rfl
    rw [e, if_pos h]

theorem accAt_next (c : Dev nD) (t : Fin cfg0.N) (h : ¬ t.val % 16 = 0) :
    accAt V c t.val t.isLt = accStep (grid0.coords t) (aBlk V c t) (xBlk V c t)
      (accAt V c (t.val - 1) (Nat.lt_of_le_of_lt (Nat.sub_le _ _) t.isLt)) := by
  obtain ⟨n, hn⟩ := t
  cases n with
  | zero => exact absurd (Nat.zero_mod _) h
  | succ n =>
    have e : accAt V c (n + 1) hn = accStep (grid0.coords ⟨n + 1, hn⟩) (aBlk V c ⟨n + 1, hn⟩) (xBlk V c ⟨n + 1, hn⟩)
        (if (n + 1) % 16 = 0 then accZero else accAt V c n (Nat.lt_of_succ_lt hn)) := rfl
    rw [e, if_neg h]; rfl

/-- What point t leaves in the output's staging buffer where it stores it (j = 15); elsewhere the body stores nothing
    there and this value is consulted by no one. -/
def outAt (c : Dev nD) (t : Fin cfg0.N) : Vec F S2048x32 .f32 :=
  if h : isLast (grid0.coords t) then outLast (grid0.coords t) h (xBlk V c t) (accAt V c t.val t.isLt)
  else accAt V c t.val t.isLt

end Cert.KernelIdeal.Hand

end
-- ==== Proof.KI.Body0.lean ====
/-
  Region 0's body, run once per control case. The two conditions are "j = 0" and "j = 15"; the grid meets three
  assignments: the first point of a grid row (the accumulator is zeroed, then updated), an inner point (updated),
  the last point (updated, then rows of x plus the accumulator stored to the output block). Each run is stated over
  the four memrefs at known contents and ends with them at the closed forms of Blocks0.
-/
import proofs.«105560_j76570676953656_2_alg».proof.Proof.KI.Blocks0
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of rank 2, as the function the library's lemmas ask for. -/
theorem off00 : (![0, 0] : Fin 2 → ℕ) = fun _ => 0 := by
  funext a; match a with | ⟨0, _⟩ => rfl | ⟨1, _⟩ => rfl

/-- One store through the whole rectangle covers the accumulator. -/
theorem coverAcc (p : Vec F S2048x32 .f32) (L : List (View.Piece (Elt F) S2048x32 .f32)) (y : S2048x32.Idx) :
    ∃ pc ∈ ((⟨rAcc, p⟩ : View.Piece (Elt F) S2048x32 .f32) :: L), y ∈ pc.1.set :=
  ⟨_, List.mem_cons_self, View.mem_set_unit_zero off00 inb_S2048x32_S2048x32_0_0 y⟩

set_option maxHeartbeats 2000000 in
/-- An inner point (0 < j < 15): the accumulator is updated; the output's buffer is handed back as found. -/
theorem runInner (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : ¬ isFirst i) (hc2 : ¬ isLast i)
    (a : Vec F S1024x2048 .i32) (x : Vec F S16384x32 .f32) (o : Vec F S2048x32 .f32) (s : Vec F S2048x32 .f32) (K : PUnit → sProp 𝕄) :
    iprop(owns (c : Thread nD τ) arg2 fullShare a ∗ owns (c : Thread nD τ) arg3 fullShare x ∗ owns (c : Thread nD τ) arg4 fullShare o
        ∗ owns (c : Thread nD τ) arg5 fullShare s
        ∗ (iprop(owns (c : Thread nD τ) arg2 fullShare a ∗ owns (c : Thread nD τ) arg3 fullShare x ∗ owns (c : Thread nD τ) arg4 fullShare o
            ∗ owns (c : Thread nD τ) arg5 fullShare (accStep i a x s)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%f4, %hf4, H4⟩, ⟨%f5, %hf5, H5⟩, Hk⟩
  subst hf0 hf1 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  rw [View.read_writes_eq_canon _ _ _ (coverAcc _ _), View.canon_unit_zero off00]
  simp only [View.readAt_eq_ld, View.ld_unit_zero (S := S1024x2048) off00, View.ld_unit_zero (S := S2048x32) off00]
  rfl

set_option maxHeartbeats 2000000 in
/-- The first point of a grid row (j = 0): the accumulator, whatever it held, is zeroed and then updated. -/
theorem runFirst (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : isFirst i) (hc2 : ¬ isLast i)
    (a : Vec F S1024x2048 .i32) (x : Vec F S16384x32 .f32) (o : Vec F S2048x32 .f32) (K : PUnit → sProp 𝕄) :
    iprop(owns (c : Thread nD τ) arg2 fullShare a ∗ owns (c : Thread nD τ) arg3 fullShare x ∗ owns (c : Thread nD τ) arg4 fullShare o
        ∗ (∃ s, owns (c : Thread nD τ) arg5 fullShare s)
        ∗ (iprop(owns (c : Thread nD τ) arg2 fullShare a ∗ owns (c : Thread nD τ) arg3 fullShare x ∗ owns (c : Thread nD τ) arg4 fullShare o
            ∗ owns (c : Thread nD τ) arg5 fullShare (accStep i a x accZero)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%f4, %hf4, H4⟩, ⟨%s, %f5, -, H5⟩, Hk⟩
  subst hf0 hf1 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  sl_unfold_words
  rw [View.read_writes_eq_canon _ _ _ (coverAcc _ _), View.canon_cons_unit_zero off00]
  simp only [View.readAt_eq_ld, View.ld_unit_zero (S := S1024x2048) off00, View.readCov_unit_zero (S := S2048x32) _ off00]
  rfl

set_option maxHeartbeats 2000000 in
/-- The last point of a grid row (j = 15): the accumulator is updated, and the output's buffer, whatever it held, takes
    rows 2048·i … of x plus the accumulator. -/
theorem runLast (c : Dev nD) (E : Set ℕ) (i : grid0.Coords)
    (arg2 : Memref sig .tc .vmem S1024x2048 .i32) (harg2 : arg2.IsWhole) (arg3 : Memref sig .tc .vmem S16384x32 .f32) (harg3 : arg3.IsWhole)
    (arg4 : Memref sig .tc .vmem S2048x32 .f32) (harg4 : arg4.IsWhole) (arg5 : Memref sig .tc .vmem S2048x32 .f32) (harg5 : arg5.IsWhole)
    (hc1 : ¬ isFirst i) (hc2 : isLast i)
    (a : Vec F S1024x2048 .i32) (x : Vec F S16384x32 .f32) (s : Vec F S2048x32 .f32) (K : PUnit → sProp 𝕄) :
    iprop(owns (c : Thread nD τ) arg2 fullShare a ∗ owns (c : Thread nD τ) arg3 fullShare x ∗ (∃ o, owns (c : Thread nD τ) arg4 fullShare o)
        ∗ owns (c : Thread nD τ) arg5 fullShare s
        ∗ (iprop(owns (c : Thread nD τ) arg2 fullShare a ∗ owns (c : Thread nD τ) arg3 fullShare x
            ∗ owns (c : Thread nD τ) arg4 fullShare (outLast i hc2 x (accStep i a x s))
            ∗ owns (c : Thread nD τ) arg5 fullShare (accStep i a x s)) -∗ K ⟨⟩))
      ⊢ wp frame (wpE (defs₀ (F := F)) Variants.none c none) E (cc0__gin_kernel i arg2 harg2 arg3 harg3 arg4 harg4 arg5 harg5) K := by
  simp only [cc0__gin_kernel_eq_skeleton]; unfold cc0__gin_kernel_skel
  unfold owns
  iintro ⟨⟨%f0, %hf0, H0⟩, ⟨%f1, %hf1, H1⟩, ⟨%o, %f4, -, H4⟩, ⟨%f5, %hf5, H5⟩, Hk⟩
  subst hf0 hf1 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (coverAcc _ _), View.canon_unit_zero off00]
    simp only [View.readAt_eq_ld, View.ld_unit_zero (S := S1024x2048) off00, View.ld_unit_zero (S := S2048x32) off00,
      View.readCov_unit_zero (S := S2048x32) _ off00]
    rfl
  iexists _; isplitr
  swap; · iexact H5
  ipureintro
  sl_unfold_words
  rw [View.read_writes_eq_canon _ _ _ (coverAcc _ _), View.canon_unit_zero off00]
  simp only [View.readAt_eq_ld, View.ld_unit_zero (S := S1024x2048) off00, View.ld_unit_zero (S := S2048x32) off00]
  rfl

end Cert.KernelIdeal.Hand

end
-- ==== Proof.KI.Dat0.lean ====
/-
  Region 0's proof data. The arrays are the region's entry contents; after the body at point t the two inputs' staging
  buffers hold their blocks and the output's holds (where j = 15) rows of x plus the accumulator; the region's invariant
  carries the accumulator at what the point before left in it, the core's other scoped buffers at anything and the
  generator register at some state. The body obligation is a case split on j = 0, 0 < j < 15, j = 15.
-/
import proofs.«105560_j76570676953656_2_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The accumulator's buffer as a memref. -/
abbrev accM : Memref sig .tc .vmem S2048x32 .f32 := Memref.whole cc0_scratch0

/-- The core's scoped buffers that region 0 neither stages nor names (region 1's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- What the launch hands the region: the accumulator at anything, the other scoped buffers, the generator register. -/
theorem PhiA_eq (c : Dev nD) :
    (Pipeline.ΦA spec0 c : sProp 𝕄)
      = iprop(((∃ d, owns (c : Thread nD τ) accM fullShare d) ∗ others (F := F) c) ∗ (∃ r, prngReg c r)) := by
  unfold Pipeline.ΦA others; rw [scopedRest0_eq]; simp only [accM, owns_whole]; try rfl

/-- The invariant before position n: before the first point what the launch hands over; afterwards the accumulator at
    what point n − 1 left. -/
def PhiAcc (c : Dev nD) : (n : ℕ) → n ≤ cfg0.N → sProp 𝕄
  | 0, _ => Pipeline.ΦA spec0 c
  | n + 1, hn => iprop((owns (c : Thread nD τ) accM fullShare (accAt V c n hn) ∗ others (F := F) c) ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop((owns (c : Thread nD τ) accM fullShare (accAt V c n hn) ∗ others (F := F) c) ∗ (∃ r, prngReg c r)) := rfl
theorem PhiAcc_pos (c : Dev nD) (n : ℕ) (h : n ≤ cfg0.N) (hz : n ≠ 0) :
    PhiAcc V c n h = iprop((owns (c : Thread nD τ) accM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem Phi_castSucc (c : Dev nD) (t : Fin cfg0.N) :
    (dat0 V c).Φ t.castSucc = PhiAcc V c t.val (Nat.le_of_lt t.isLt) := by
  dsimp only [dat0]; simp only [Fin.coe_castSucc]

/-- An input's current staging buffer holds its block at every point, fetched there or not: the body leaves it in
    place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Where the output's window is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ isLast (grid0.coords t) → cfg0.idle 2 (grid0.coords t) = true := by decide +kernel
theorem live2 : ∀ t : Fin cfg0.N, isLast (grid0.coords t) → cfg0.idle 2 (grid0.coords t) = false := by decide +kernel
theorem noFlush2 : ∀ t : Fin cfg0.N, ¬ isLast (grid0.coords t) → (cfg0.win 2).flush t = false := by decide +kernel

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 128 := lt_of_lt_of_eq t.isLt (show cfg0.N = 128 from N_0)
  by_cases h0 : t.val % 16 = 0
  · -- the first point of a grid row
    have hF : isFirst (grid0.coords t) := (isFirst_iff t).mpr h0
    have hL : ¬ isLast (grid0.coords t) := fun h => by have := (isLast_iff t).mp h; omega
    rw [Dat.leavesExact_idle (dat0 V c) 2 t (idle2 t hL) (noFlush2 t hL)]
    rw [accAt_first V c t h0]
    by_cases hz : t.val = 0
    · rw [Phi_castSucc V c t, PhiAcc_zero V c _ _ hz, PhiA_eq]
      iintro ⟨⟨⟨HS, HR⟩, Hg⟩, Ho, ⟨%d0, H0⟩, ⟨%d1, H1⟩, ⟨%d2, H2⟩⟩
      iapply (runFirst c Set.univ (grid0.coords t) _ _ _ _ _ _ _ _ hF hL (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi_castSucc V c t, PhiAcc_pos V c _ _ hz]
      iintro ⟨⟨⟨HS, HR⟩, Hg⟩, Ho, ⟨%d0, H0⟩, ⟨%d1, H1⟩, ⟨%d2, H2⟩⟩
      iapply (runFirst c Set.univ (grid0.coords t) _ _ _ _ _ _ _ _ hF hL (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hF : ¬ isFirst (grid0.coords t) := fun h => h0 ((isFirst_iff t).mp h)
    have hz : t.val ≠ 0 := fun e => h0 (by rw [e])
    rw [accAt_next V c t h0]
    rw [Phi_castSucc V c t, PhiAcc_pos V c _ _ hz]
    by_cases h1 : t.val % 16 = 15
    · -- the last point of a grid row
      have hL : isLast (grid0.coords t) := (isLast_iff t).mpr h1
      rw [show (dat0 V c).leavesExact 2 t = owns (c : Thread nD τ) (st0_2 t) fullShare ((dat0 V c).after 2 t) from by
        unfold Dat.leavesExact; rw [live2 t hL], after0_2]
      rw [show outAt V c t = outLast (grid0.coords t) hL (xBlk V c t) (accAt V c t.val t.isLt) from dif_pos hL, accAt_next V c t h0]
      iintro ⟨⟨⟨HS, HR⟩, Hg⟩, Ho, ⟨%d0, H0⟩, ⟨%d1, H1⟩, ⟨%d2, H2⟩⟩
      iapply (runLast c Set.univ (grid0.coords t) _ _ _ _ _ _ _ _ hF hL (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- an inner point
      have hL : ¬ isLast (grid0.coords t) := fun h => h1 ((isLast_iff t).mp h)
      rw [Dat.leavesExact_idle (dat0 V c) 2 t (idle2 t hL) (noFlush2 t hL)]
      iintro ⟨⟨⟨HS, HR⟩, Hg⟩, Ho, ⟨%d0, H0⟩, ⟨%d1, H1⟩, ⟨%d2, H2⟩⟩
      iapply (runInner c Set.univ (grid0.coords t) _ _ _ _ _ _ _ _ hF hL (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point; after the last point the invariant
    gives it back, the accumulator's contents forgotten. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 128 := N_0; omega), PhiA_eq]
  iintro ⟨⟨HS, HR⟩, Hg⟩
  isplitl [HS HR]
  · isplitl [HS]; · iexists _; iexact HS
    iexact HR
  iexact Hg

end Cert.KernelIdeal.Hand

end
-- ==== Proof.KI.Blocks1.lean ====
/-
  Region 1 (Linear → BatchNorm with batch statistics → ReLU → Linear → ReLU → mean over the 16384 rows → Linear),
  one grid point, every operand staged whole. What the point stores into the 1 × 16 result, as one function of
  the nine operands, read at any float instance.
-/
import proofs.«105560_j76570676953656_2_alg».proof.Proof.Gen.KernelIdeal.Launch
import proofs.«105560_j76570676953656_2_alg».proof.Proof.Gen.KernelIdeal.Skeleton
import proofs.«105560_j76570676953656_2_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The result block from the aggregated features h and the eight parameters: the body's arithmetic, its first sixty
    statements (up to the second ReLU's operands) a part of their own. -/
def mlpOut (h : Vec F S16384x32 .f32) (W1 : Vec F S32x32 .f32) (b1 g be : Vec F S32 .f32) (W2 : Vec F S32x32 .f32)
    (b2 : Vec F S32 .f32) (Wf : Vec F S32x16 .f32) (bf : Vec F S16 .f32) : Vec F S1x16 .f32 :=
  k1_pay1 (k1_pay2 h W1 b1 g be) (k1_pay3 W2) (constant S16384x32 .f32 0x00000000#32) b2 Wf bf

variable (V : (c : Dev nD) → (b : Ref sig .tc) → Buf (Elt F) ((c : Thread nD τ).loc b))

/-- Window w's block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the point leaves in the result's staging buffer. -/
def out1 (c : Dev nD) (t : Fin cfg1.N) : Vec F S1x16 .f32 :=
  mlpOut (iblk1 V c 0 t) (iblk1 V c 1 t) (iblk1 V c 2 t) (iblk1 V c 3 t) (iblk1 V c 4 t) (iblk1 V c 5 t) (iblk1 V c 6 t)
    (iblk1 V c 7 t) (iblk1 V c 8 t)

end Cert.KernelIdeal.Hand

end
-- ==== Proof.KI.Body1.lean ====
/-
  Region 1's body: its one run. Every operand's staging buffer is read whole; the result's buffer, whatever it held, ends
  at the closed form of Blocks1.
-/
import proofs.«105560_j76570676953656_2_alg».proof.Proof.KI.Blocks1
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, rank 2 and rank 1, as the function the library's lemmas ask for. -/
theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

/-- The one store through the whole rectangle covers the result block. -/
theorem coverOut (p : Vec F S1x16 .f32) (y : S1x16.Idx) :
    ∃ pc ∈ ([⟨Rect.unit (s := S1x16) ![0, 0] S1x16.size inb_S1x16_S1x16_0_0, p⟩] : List (View.Piece (Elt F) S1x16 .f32)), y ∈ pc.1.set :=
  ⟨_, List.mem_singleton_self _, View.mem_set_unit_zero zero2 inb_S1x16_S1x16_0_0 y⟩

set_option maxHeartbeats 4000000 in
theorem runMlp (c : Dev nD) (E : Set ℕ) (i : grid1.Coords)
    (arg1 : Memref sig .tc .vmem S16384x32 .f32) (harg1 : arg1.IsWhole) (arg2 : Memref sig .tc .vmem S32x32 .f32) (harg2 : arg2.IsWhole)
    (arg3 : Memref sig .tc .vmem S32 .f32) (harg3 : arg3.IsWhole) (arg4 : Memref sig .tc .vmem S32 .f32) (harg4 : arg4.IsWhole)
    (arg5 : Memref sig .tc .vmem S32 .f32) (harg5 : arg5.IsWhole) (arg6 : Memref sig .tc .vmem S32x32 .f32) (harg6 : arg6.IsWhole)
    (arg7 : Memref sig .tc .vmem S32 .f32) (harg7 : arg7.IsWhole) (arg8 : Memref sig .tc .vmem S32x16 .f32) (harg8 : arg8.IsWhole)
    (arg9 : Memref sig .tc .vmem S16 .f32) (harg9 : arg9.IsWhole) (arg10 : Memref sig .tc .vmem S1x16 .f32) (harg10 : arg10.IsWhole)
    (x0 : Vec F S16384x32 .f32) (x1 : Vec F S32x32 .f32) (x2 x3 x4 : Vec F S32 .f32) (x5 : Vec F S32x32 .f32) (x6 : Vec F S32 .f32)
    (x7 : Vec F S32x16 .f32) (x8 : Vec F S16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare (mlpOut x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (coverOut _), View.canon_unit_zero zero2]
  simp only [View.readAt_eq_ld, View.ld_unit_zero (S := S16384x32) zero2, View.ld_unit_zero (S := S32x32) zero2,
    View.ld_unit_zero (S := S32x16) zero2, View.ld_unit_zero (S := S32) zero1, View.ld_unit_zero (S := S16) zero1]
  rfl

end Cert.KernelIdeal.Hand

end
-- ==== Proof.KI.Dat1.lean ====
/-
  Region 1's proof data: one grid point; each of the nine operands' staging buffers holds its whole array, the result's
  ends at the closed form of Blocks1; the invariant is the core's scoped rest and generator register, untouched.
-/
import proofs.«105560_j76570676953656_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]

/-- Each operand's staging buffer holds its block (the whole array) when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runMlp c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the one point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as two kernel regions, and its run.

  Between two regions the TensorCore holds every unscoped buffer at known contents: at launch the memory's; after region 0
  the same but for the aggregated features' array, at what the region's write-backs leave; after region 1 the same but for
  the result's array. One launch over the two regions then says: every weakly fair execution terminates, nothing faults,
  and every unscoped buffer ends at the last of these contents. The frame (each argument as launched) and the value
  (the result's array) are both read off that.
-/
import proofs.«105560_j76570676953656_2_alg».proof.Proof.KI.Dat0
import proofs.«105560_j76570676953656_2_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m ((c : Dev nD), b)
/-- The same read at the TensorCore's references: what region 0's proof data take. -/
abbrev Ve0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what region 1's proof data take. -/
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (Ve1 m) c).arrAt w cfg1.N
theorem W2_arr (c : Dev nD) (w : Fin cfg1.W) :
    W2 m c (Proc.devRef .tc (Pipeline.arrRef spec1 w)) = (dat1 (Ve1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Ve2 : (c : Dev nD) → (b : Ref sig .tc) → Buf (Elt F) ((c : Thread nD τ).loc b) := fun c b => W2 m c b
theorem hF1 (c : Dev nD) (w : Fin cfg1.W) : (dat1 (Ve1 m) c).arrAt w cfg1.N = Ve2 m c (Pipeline.arrRef spec1 w) :=
  (W2_arr m c w).symm
theorem hrest1 (c : Dev nD) : ∀ b, b ∉ Finset.univ.image (Pipeline.arrRef spec1) → Ve2 m c b = Ve1 m c b :=
  fun b hb => W2_of_ne m c b fun w e => hb (Finset.mem_image.mpr ⟨w, Finset.mem_univ _, e⟩)

/-! ## The arguments end as launched: a region reads an argument through an input window or passes it by -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (Ve0 m) c).arrAt_in 1 rfl _).trans (A_eq0 (Ve0 m) c 1))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (Ve1 m) c).arrAt_in 1 rfl _).trans (A_eq1 (Ve1 m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := (W2_arr m c 2).trans (((dat1 (Ve1 m) c).arrAt_in 2 rfl _).trans (A_eq1 (Ve1 m) c 2))
    _ = W0 m c (Proc.devRef .tc main_arg3) := W1_of_ne m c main_arg3 (by decide)
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := (W2_arr m c 3).trans (((dat1 (Ve1 m) c).arrAt_in 3 rfl _).trans (A_eq1 (Ve1 m) c 3))
    _ = W0 m c (Proc.devRef .tc main_arg4) := W1_of_ne m c main_arg4 (by decide)
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := (W2_arr m c 4).trans (((dat1 (Ve1 m) c).arrAt_in 4 rfl _).trans (A_eq1 (Ve1 m) c 4))
    _ = W0 m c (Proc.devRef .tc main_arg5) := W1_of_ne m c main_arg5 (by decide)
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := (W2_arr m c 5).trans (((dat1 (Ve1 m) c).arrAt_in 5 rfl _).trans (A_eq1 (Ve1 m) c 5))
    _ = W0 m c (Proc.devRef .tc main_arg6) := W1_of_ne m c main_arg6 (by decide)
    _ = m ((c : Thread nD τ).loc main_arg6) := rfl
theorem W2_main_arg7 (c : Dev nD) : W2 m c (Proc.devRef .tc main_arg7) = m ((c : Thread nD τ).loc main_arg7) :=
  calc W2 m c (Proc.devRef .tc main_arg7)
    _ = W1 m c (Proc.devRef .tc main_arg7) := (W2_arr m c 6).trans (((dat1 (Ve1 m) c).arrAt_in 6 rfl _).trans (A_eq1 (Ve1 m) c 6))
    _ = W0 m c (Proc.devRef .tc main_arg7) := W1_of_ne m c main_arg7 (by decide)
    _ = m ((c : Thread nD τ).loc main_arg7) := rfl
theorem W2_main_arg8 (c : Dev nD) : W2 m c (Proc.devRef .tc main_arg8) = m ((c : Thread nD τ).loc main_arg8) :=
  calc W2 m c (Proc.devRef .tc main_arg8)
    _ = W1 m c (Proc.devRef .tc main_arg8) := (W2_arr m c 7).trans (((dat1 (Ve1 m) c).arrAt_in 7 rfl _).trans (A_eq1 (Ve1 m) c 7))
    _ = W0 m c (Proc.devRef .tc main_arg8) := W1_of_ne m c main_arg8 (by decide)
    _ = m ((c : Thread nD τ).loc main_arg8) := rfl
theorem W2_main_arg9 (c : Dev nD) : W2 m c (Proc.devRef .tc main_arg9) = m ((c : Thread nD τ).loc main_arg9) :=
  calc W2 m c (Proc.devRef .tc main_arg9)
    _ = W1 m c (Proc.devRef .tc main_arg9) := (W2_arr m c 8).trans (((dat1 (Ve1 m) c).arrAt_in 8 rfl _).trans (A_eq1 (Ve1 m) c 8))
    _ = W0 m c (Proc.devRef .tc main_arg9) := W1_of_ne m c main_arg9 (by decide)
    _ = m ((c : Thread nD τ).loc main_arg9) := rfl

/-- The result's array ends at what region 1's one write-back leaves. -/
theorem W2_main_v1 (c : Dev nD) : W2 m c (Proc.devRef .tc main_v1) = (dat1 (Ve1 m) c).arrAt 9 cfg1.N := W2_arr m c 9
/-- Region 1 finds the aggregated features at what region 0's write-backs leave. -/
theorem Ve1_main_v0 (c : Dev nD) : Ve1 m c main_v0 = (dat0 (Ve0 m) c).arrAt 2 cfg0.N := W1_arr m c 2
/-- Region 1 finds a parameter as launched. -/
theorem Ve1_main_arg2 (c : Dev nD) : Ve1 m c main_arg2 = m ((c : Thread nD τ).loc main_arg2) := W1_of_ne m c main_arg2 (by decide)
theorem Ve1_main_arg3 (c : Dev nD) : Ve1 m c main_arg3 = m ((c : Thread nD τ).loc main_arg3) := W1_of_ne m c main_arg3 (by decide)
theorem Ve1_main_arg4 (c : Dev nD) : Ve1 m c main_arg4 = m ((c : Thread nD τ).loc main_arg4) := W1_of_ne m c main_arg4 (by decide)
theorem Ve1_main_arg5 (c : Dev nD) : Ve1 m c main_arg5 = m ((c : Thread nD τ).loc main_arg5) := W1_of_ne m c main_arg5 (by decide)
theorem Ve1_main_arg6 (c : Dev nD) : Ve1 m c main_arg6 = m ((c : Thread nD τ).loc main_arg6) := W1_of_ne m c main_arg6 (by decide)
theorem Ve1_main_arg7 (c : Dev nD) : Ve1 m c main_arg7 = m ((c : Thread nD τ).loc main_arg7) := W1_of_ne m c main_arg7 (by decide)
theorem Ve1_main_arg8 (c : Dev nD) : Ve1 m c main_arg8 = m ((c : Thread nD τ).loc main_arg8) := W1_of_ne m c main_arg8 (by decide)
theorem Ve1_main_arg9 (c : Dev nD) : Ve1 m c main_arg9 = m ((c : Thread nD τ).loc main_arg9) := W1_of_ne m c main_arg9 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (Ve0 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]

set_option backward.isDefEq.respectTransparency.types false in
/-- Every weakly fair execution of the program from memory m with zero counters terminates, and every unscoped buffer
    of every TensorCore ends at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float instance: every weakly fair execution terminates, nothing faults, and each of the ten
    argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c),
    (h c _ (mem_uc main_arg7 (by decide))).trans (W2_main_arg7 m c),
    (h c _ (mem_uc main_arg8 (by decide))).trans (W2_main_arg8 m c),
    (h c _ (mem_uc main_arg9 (by decide))).trans (W2_main_arg9 m c)⟩) (run_all m ρ)

/-- THE RUN WITH THE RESULT NAMED: besides the frame, the result's array ends at what region 1's write-back leaves. -/
theorem run_value : θ_run defs (onTc (τ := τ) (main (F := F))) ⟨m, fun _ => 0, ρ⟩ (fun r => ∀ c : Dev nD,
      r.2.mem ((c.tc : Thread nD τ).loc main_v1) = (dat1 (Ve1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v1 (by decide))).trans (W2_main_v1 m c), (h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c),
    (h c _ (mem_uc main_arg7 (by decide))).trans (W2_main_arg7 m c),
    (h c _ (mem_uc main_arg8 (by decide))).trans (W2_main_arg8 m c),
    (h c _ (mem_uc main_arg9 (by decide))).trans (W2_main_arg9 m c)⟩) (run_all m ρ)

end Cert.KernelIdeal.Hand

end
-- ==== Proof.Spec.Agg.lean ====
/-
  The graph aggregation, over the extended reals: h = x + adjᵀ · x, every entry of adj read as the integer it is.
  Row R of h is row R of x plus the sum, over all 16384 source rows q, of adj(q, R) times row q of x.
  Stated index by index over literal shapes; it names no program, so that the kernel's side and the reference's
  side can both be shown equal to it.
-/
import Idealize.ShloMosaic.PureOps.Ideal
import Idealize.ShloMosaic.Lib.ValueIdx

noncomputable section

namespace Cert.Spec

open Idealize.ShloMosaic Idealize.ShloMosaic.ValueIdx

abbrev SX : Shape := ⟨2, ![16384, 32]⟩
abbrev SA : Shape := ⟨2, ![16384, 16384]⟩

/-- h(R, d) = x(R, d) + Σ_q adj(q, R) · x(q, d). -/
def agg (x : Vec Ideal SX .f32) (a : Vec Ideal SA .i32) : Vec Ideal SX .f32 :=
  fun i => x i + ∑ q : Fin 16384, (((a (ix2 q (i 0))).toInt : ℝ) : EReal) * x (ix2 q (i 1))

theorem agg_apply (x : Vec Ideal SX .f32) (a : Vec Ideal SA .i32) (R : Fin 16384) (d : Fin 32) :
    agg x a (ix2 R d) = x (ix2 R d) + ∑ q : Fin 16384, (((a (ix2 q R)).toInt : ℝ) : EReal) * x (ix2 q d) := rfl

end Cert.Spec

end
-- ==== Proof.Val.Agg.lean ====
/-
  The aggregation the kernel's first region computes, at the extended reals: what the last point of grid row i stores
  into the output's block i is rows 2048·i … of h = x + adjᵀ · x.

  Point t = 16·i + j holds block (j, i) of adj and the whole of x; its update adds to the accumulator at (r, d) the
  1024 products adj(1024·j + k, 2048·i + r) · x(1024·j + k, d). Along a grid row the accumulator therefore holds the
  first 1024·(j + 1) terms of the sum over the source rows; at j = 15 these are all 16384, and the stored block adds
  them to x's own rows. Only the commutative-monoid laws of + on the extended reals are used (a sum over an initial
  segment of the naturals is split at a multiple of 1024).
-/
import proofs.«105560_j76570676953656_2_alg».proof.Proof.KI.Blocks0
import proofs.«105560_j76570676953656_2_alg».proof.Proof.Spec.Agg
import Idealize.ShloMosaic.Lib.ValueIdx
import Idealize.ShloMosaic.Lib.Pipeline.Value
import Idealize.ShloMosaic.PureOps.Ideal.Laws
import Mathlib.Algebra.BigOperators.Fin
import Mathlib.Algebra.BigOperators.Group.Finset.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-! ## The sum over the source rows, in slabs of 1024 -/

/-- The q-th term of the aggregation's sum at (R, d), as a function on the naturals: adj(q, R) · x(q, d) for a source
    row q below 16384, zero beyond. -/
def aggTerm (x : Vec Ideal S16384x32 .f32) (a : Vec Ideal S16384x16384 .i32) (R : Fin 16384) (d : Fin 32) (q : ℕ) : EReal :=
  if h : q < 16384 then (((a (ix2 ⟨q, h⟩ R)).toInt : ℝ) : EReal) * x (ix2 ⟨q, h⟩ d) else 0

theorem aggTerm_of_lt (x : Vec Ideal S16384x32 .f32) (a : Vec Ideal S16384x16384 .i32) (R : Fin 16384) (d : Fin 32) (q : ℕ)
    (h : q < 16384) : aggTerm x a R d q = (((a (ix2 ⟨q, h⟩ R)).toInt : ℝ) : EReal) * x (ix2 ⟨q, h⟩ d) := dif_pos h

/-- The first 1024·(j+1) terms are the first 1024·j terms and then the 1024 terms of slab j. -/
theorem aggPartial_succ (x : Vec Ideal S16384x32 .f32) (a : Vec Ideal S16384x16384 .i32) (R : Fin 16384) (d : Fin 32) (j : ℕ) :
    ∑ q ∈ Finset.range (1024 * (j + 1)), aggTerm x a R d q
      = ∑ q ∈ Finset.range (1024 * j), aggTerm x a R d q + ∑ k : Fin 1024, aggTerm x a R d (1024 * j + k.val) := by
  rw [Nat.mul_succ, Finset.sum_range_add, Finset.sum_range (fun k => aggTerm x a R d (1024 * j + k))]

/-- The first 1024 terms are slab 0's. -/
theorem aggPartial_one (x : Vec Ideal S16384x32 .f32) (a : Vec Ideal S16384x16384 .i32) (R : Fin 16384) (d : Fin 32) :
    ∑ q ∈ Finset.range (1024 * (0 + 1)), aggTerm x a R d q = 0 + ∑ k : Fin 1024, aggTerm x a R d (1024 * 0 + k.val) := by
  rw [aggPartial_succ, Nat.mul_zero, Finset.range_zero, Finset.sum_empty]

/-- The aggregation at (R, d) is x(R, d) plus all 16384 terms. -/
theorem agg_eq_range (x : Vec Ideal S16384x32 .f32) (a : Vec Ideal S16384x16384 .i32) (R : Fin 16384) (d : Fin 32) :
    Cert.Spec.agg x a (ix2 R d) = x (ix2 R d) + ∑ q ∈ Finset.range 16384, aggTerm x a R d q := by
  rw [Cert.Spec.agg_apply, Finset.sum_range]
  exact congrArg (x (ix2 R d) + ·) (Finset.sum_congr rfl fun q _ => (aggTerm_of_lt x a R d q.val q.isLt).symm)

/-! ## The contraction's operand indices: (block)ᵀ · slab contracts axis 0 of both -/

theorem lhs_agg_0 (i : S2048x32.Idx) (q : dot_S1024x2048_S1024x32_S2048x32_0_0_1_1_n_n.contr.Idx) :
    (dot_S1024x2048_S1024x32_S2048x32_0_0_1_1_n_n.lhsIdx i q 0).val = (q ⟨0, by decide⟩).val :=
  dot_S1024x2048_S1024x32_S2048x32_0_0_1_1_n_n.lhsIdx_val_of_single rfl i q
theorem lhs_agg_1 (i : S2048x32.Idx) (q : dot_S1024x2048_S1024x32_S2048x32_0_0_1_1_n_n.contr.Idx) :
    (dot_S1024x2048_S1024x32_S2048x32_0_0_1_1_n_n.lhsIdx i q 1).val = (i 0).val := by
  unfold DotDims.lhsIdx
  rw [dif_neg (show ¬(1 : Fin S1024x2048.rank) ∈ dot_S1024x2048_S1024x32_S2048x32_0_0_1_1_n_n.lhsBatch by decide), dif_pos (show (1 : Fin S1024x2048.rank) ∈ dot_S1024x2048_S1024x32_S2048x32_0_0_1_1_n_n.lhsNonContracting by decide)]
  rfl
theorem rhs_agg_0 (i : S2048x32.Idx) (q : dot_S1024x2048_S1024x32_S2048x32_0_0_1_1_n_n.contr.Idx) :
    (dot_S1024x2048_S1024x32_S2048x32_0_0_1_1_n_n.rhsIdx i q 0).val = (q ⟨0, by decide⟩).val :=
  dot_S1024x2048_S1024x32_S2048x32_0_0_1_1_n_n.rhsIdx_val_of_single rfl i q
theorem rhs_agg_1 (i : S2048x32.Idx) (q : dot_S1024x2048_S1024x32_S2048x32_0_0_1_1_n_n.contr.Idx) :
    (dot_S1024x2048_S1024x32_S2048x32_0_0_1_1_n_n.rhsIdx i q 1).val = (i 1).val := by
  unfold DotDims.rhsIdx
  rw [dif_neg (show ¬(1 : Fin S1024x32.rank) ∈ dot_S1024x2048_S1024x32_S2048x32_0_0_1_1_n_n.rhsBatch by decide), dif_pos (show (1 : Fin S1024x32.rank) ∈ dot_S1024x2048_S1024x32_S2048x32_0_0_1_1_n_n.rhsNonContracting by decide)]
  rfl

/-! ## One point's arithmetic at an index -/

/-- THE UPDATE AT AN INDEX: the accumulator there plus, over the slab's 1024 rows k, the block's entry (k, r) as the
    real it is times the slab's entry (k, d). The conversion of the integers is exact, the change of format the
    identity, the product into the zero accumulator the plain sum over the contracted axis. -/
theorem pay2_apply (v6 : Vec Ideal S1024x32 .f32) (v7 : Vec Ideal S1024x2048 .i32) (v11 : Vec Ideal S2048x32 .f32)
    (r : Fin 2048) (d : Fin 32) :
    k0_pay2 v6 v7 v11 (ix2 r d)
      = v11 (ix2 r d) + ∑ k : Fin 1024, (((v7 (ix2 k r)).toInt : ℝ) : EReal) * v6 (ix2 k d) := by
  unfold k0_pay2
  rw [shapeCast_self]
  show v11 (ix2 r d) + FloatOps.matmul dot_S1024x2048_S1024x32_S2048x32_0_0_1_1_n_n none
      (sitofp (F := Ideal) .bf16 v7) (truncf .bf16 v6 bitsLt_bf16_f32) (constant (F := Ideal) S2048x32 .f32 0x00000000#32) (ix2 r d) = _
  rw [Ideal.matmul_constant_zero_apply, ← Equiv.sum_comp (contrEquiv1 dot_S1024x2048_S1024x32_S2048x32_0_0_1_1_n_n 1024 rfl rfl).symm]
  refine congrArg (v11 (ix2 r d) + ·) (Finset.sum_congr rfl fun k _ => ?_)
  have hk := contrEquiv1_symm_val dot_S1024x2048_S1024x32_S2048x32_0_0_1_1_n_n 1024 rfl rfl k
  have el : dot_S1024x2048_S1024x32_S2048x32_0_0_1_1_n_n.lhsIdx (ix2 r d) ((contrEquiv1 dot_S1024x2048_S1024x32_S2048x32_0_0_1_1_n_n 1024 rfl rfl).symm k) = ix2 k r := funext fun a => Fin.ext (by
    match a with
    | ⟨0, _⟩ => exact (lhs_agg_0 _ _).trans hk
    | ⟨1, _⟩ => exact lhs_agg_1 _ _)
  have er : dot_S1024x2048_S1024x32_S2048x32_0_0_1_1_n_n.rhsIdx (ix2 r d) ((contrEquiv1 dot_S1024x2048_S1024x32_S2048x32_0_0_1_1_n_n 1024 rfl rfl).symm k) = ix2 k d := funext fun a => Fin.ext (by
    match a with
    | ⟨0, _⟩ => exact (rhs_agg_0 _ _).trans hk
    | ⟨1, _⟩ => exact rhs_agg_1 _ _)
  rw [el, er]
  rfl

/-- The zeroed accumulator is zero everywhere. -/
theorem accZero_apply (j : S2048x32.Idx) : (accZero (F := Ideal)) j = 0 := by
  unfold accZero k0_pay1
  rw [shapeCast_self]
  exact Ideal.ofBits_zero_f32

/-- The stored block at an index: the residual's entry first, then the accumulator's. -/
theorem pay3_apply (v22 v23 : Vec Ideal S2048x32 .f32) (j : S2048x32.Idx) : k0_pay3 v22 v23 j = v22 j + v23 j := rfl

/-! ## The blocks and the slabs, in the arrays' own coordinates -/

variable (V : (c : Dev nD) → (b : Ref sig .tc) → Buf (Elt Ideal) ((c : Thread nD τ).loc b))

/-- The printed index maps over the grid: at point t the adj window is on block (t mod 16, t div 16), the x window on
    block (0, 0). -/
theorem idx_facts : ∀ t : Fin cfg0.N, win0_0.index t (0 : Fin 2) = t.val % 16 ∧ win0_0.index t (1 : Fin 2) = t.val / 16
    ∧ win0_1.index t (0 : Fin 2) = 0 ∧ win0_1.index t (1 : Fin 2) = 0 :=
  (by decide +kernel : ∀ t : Fin grid0.N, _)

/-- The grid's coordinates of point t: (t div 16, t mod 16). -/
theorem coords_facts : ∀ t : Fin cfg0.N, (grid0.coords t 0).val = t.val / 16 ∧ (grid0.coords t 1).val = t.val % 16 :=
  (by decide +kernel : ∀ t : Fin grid0.N, _)

/-- The adj block of point t at (k, r) is adj at (1024·(t mod 16) + k, 2048·(t div 16) + r). -/
theorem aBlk_apply (c : Dev nD) (t : Fin cfg0.N) (k : Fin 1024) (r : Fin 2048) (Q R : Fin 16384)
    (hQ : Q.val = 1024 * (t.val % 16) + k.val) (hR : R.val = 2048 * (t.val / 16) + r.val) :
    aBlk V c t (ix2 k r) = V c main_arg1 (ix2 Q R) := by
  obtain ⟨e0, e1, -, -⟩ := idx_facts t
  show V c main_arg1 (((cfg0.win 0).blk t).view.emb (ix2 k r)) = V c main_arg1 _
  refine congrArg (V c main_arg1) (funext fun a => Fin.ext ?_)
  match a with
  | ⟨0, _⟩ => show win0_0.index t (0 : Fin 2) * 1024 + 1 * k.val = Q.val; omega
  | ⟨1, _⟩ => show win0_0.index t (1 : Fin 2) * 2048 + 1 * r.val = R.val; omega

/-- The x window's block is the whole of x at every point. -/
theorem xBlk_eq (c : Dev nD) (t : Fin cfg0.N) : xBlk V c t = V c main_arg0 := by
  obtain ⟨-, -, e0, e1⟩ := idx_facts t
  funext j
  show V c main_arg0 (((cfg0.win 1).blk t).view.emb j) = V c main_arg0 j
  refine congrArg (V c main_arg0) (funext fun a => Fin.ext ?_)
  match a with
  | ⟨0, _⟩ => show win0_1.index t (0 : Fin 2) * 16384 + 1 * (j 0).val = (j 0).val; omega
  | ⟨1, _⟩ => show win0_1.index t (1 : Fin 2) * 32 + 1 * (j 1).val = (j 1).val; omega

/-- The contraction's slab at point t is rows 1024·(t mod 16) … of x. -/
theorem ldSrc_apply (x : Vec Ideal S16384x32 .f32) (t : Fin cfg0.N) (k : Fin 1024) (d : Fin 32) (Q : Fin 16384)
    (hQ : Q.val = 1024 * (t.val % 16) + k.val) :
    View.ld x (rSrc (grid0.coords t)) (ix2 k d) = x (ix2 Q d) := by
  obtain ⟨-, e1⟩ := coords_facts t
  have e := k0_off1_eq (grid0.coords t)
  refine congrArg x (funext fun a => Fin.ext ?_)
  match a with
  | ⟨0, _⟩ => show k0_off1 (grid0.coords t) 0 + 1 * k.val = Q.val; rw [e]; show 1024 * (grid0.coords t 1).val + 1 * k.val = _; omega
  | ⟨1, _⟩ => show k0_off1 (grid0.coords t) 1 + 1 * d.val = d.val; rw [e]; show 0 + 1 * d.val = _; omega

/-- The residual's rows at point t (where it reads them) are rows 2048·(t div 16) … of x. -/
theorem ldDst_apply (x : Vec Ideal S16384x32 .f32) (t : Fin cfg0.N) (h : isLast (grid0.coords t)) (r : Fin 2048) (d : Fin 32)
    (R : Fin 16384) (hR : R.val = 2048 * (t.val / 16) + r.val) :
    View.ld x (rDst (grid0.coords t) h) (ix2 r d) = x (ix2 R d) := by
  obtain ⟨e0, -⟩ := coords_facts t
  have e := k0_off2_eq (grid0.coords t)
  refine congrArg x (funext fun a => Fin.ext ?_)
  match a with
  | ⟨0, _⟩ => show k0_off2 (grid0.coords t) 0 + 1 * r.val = R.val; rw [e]; show 2048 * (grid0.coords t 0).val + 1 * r.val = _; omega
  | ⟨1, _⟩ => show k0_off2 (grid0.coords t) 1 + 1 * d.val = d.val; rw [e]; show 0 + 1 * d.val = _; omega

/-! ## The accumulation along a grid row -/

/-- One point's update at (r, d), in the arrays' coordinates: it adds slab (t mod 16)'s 1024 terms of the sum at
    (R, d), R = 2048·(t div 16) + r. -/
theorem accStep_apply (c : Dev nD) (t : Fin cfg0.N) (s : Vec Ideal S2048x32 .f32) (r : Fin 2048) (d : Fin 32)
    (R : Fin 16384) (hR : R.val = 2048 * (t.val / 16) + r.val) :
    accStep (grid0.coords t) (aBlk V c t) (xBlk V c t) s (ix2 r d)
      = s (ix2 r d) + ∑ k : Fin 1024, aggTerm (V c main_arg0) (V c main_arg1) R d (1024 * (t.val % 16) + k.val) := by
  refine (pay2_apply (View.ld (xBlk V c t) (rSrc (grid0.coords t))) (aBlk V c t) s r d).trans ?_
  refine congrArg (s (ix2 r d) + ·) (Finset.sum_congr rfl fun k _ => ?_)
  have hq : 1024 * (t.val % 16) + k.val < 16384 := by have := k.isLt; omega
  rw [aggTerm_of_lt _ _ _ _ _ hq, xBlk_eq V c t,
    aBlk_apply V c t k r ⟨1024 * (t.val % 16) + k.val, hq⟩ R rfl hR,
    ldSrc_apply (V c main_arg0) t k d ⟨1024 * (t.val % 16) + k.val, hq⟩ rfl]

/-- At the first point of a grid row the accumulator holds slab 0's terms. -/
theorem accAt_first_apply (c : Dev nD) (t : Fin cfg0.N) (h : t.val % 16 = 0) (r : Fin 2048) (d : Fin 32)
    (R : Fin 16384) (hR : R.val = 2048 * (t.val / 16) + r.val) :
    accAt V c t.val t.isLt (ix2 r d)
      = ∑ q ∈ Finset.range (1024 * (t.val % 16 + 1)), aggTerm (V c main_arg0) (V c main_arg1) R d q := by
  rw [accAt_first V c t h, accStep_apply V c t _ r d R hR, accZero_apply, h, aggPartial_one]

/-- At a later point of the row it holds the terms the point before left and this point's slab. -/
theorem accAt_next_apply (c : Dev nD) (t : Fin cfg0.N) (h : ¬ t.val % 16 = 0) (r : Fin 2048) (d : Fin 32)
    (R : Fin 16384) (hR : R.val = 2048 * (t.val / 16) + r.val)
    (ih : accAt V c (t.val - 1) (Nat.lt_of_le_of_lt (Nat.sub_le _ _) t.isLt) (ix2 r d)
      = ∑ q ∈ Finset.range (1024 * ((t.val - 1) % 16 + 1)), aggTerm (V c main_arg0) (V c main_arg1) R d q) :
    accAt V c t.val t.isLt (ix2 r d)
      = ∑ q ∈ Finset.range (1024 * (t.val % 16 + 1)), aggTerm (V c main_arg0) (V c main_arg1) R d q := by
  have e : (t.val - 1) % 16 + 1 = t.val % 16 := by omega
  rw [accAt_next V c t h, accStep_apply V c t _ r d R hR, ih, e, aggPartial_succ]

/-- THE ACCUMULATOR after point n, at (r, d): the first 1024·(n mod 16 + 1) terms of the sum at (R, d),
    R = 2048·(n div 16) + r. -/
theorem accAt_apply (c : Dev nD) : ∀ (n : ℕ) (hn : n < cfg0.N) (r : Fin 2048) (d : Fin 32) (R : Fin 16384),
    R.val = 2048 * (n / 16) + r.val →
    accAt V c n hn (ix2 r d)
      = ∑ q ∈ Finset.range (1024 * (n % 16 + 1)), aggTerm (V c main_arg0) (V c main_arg1) R d q := by
  intro n
  induction n with
  | zero => intro hn r d R hR; exact accAt_first_apply V c ⟨0, hn⟩ (Nat.zero_mod 16) r d R hR
  | succ n ih =>
    intro hn r d R hR
    by_cases h : (n + 1) % 16 = 0
    · exact accAt_first_apply V c ⟨n + 1, hn⟩ h r d R hR
    · exact accAt_next_apply V c ⟨n + 1, hn⟩ h r d R hR (ih (Nat.lt_of_succ_lt hn) r d R (by omega))

/-! ## The stored block -/

/-- What the last point of grid row i stores into the output's block is rows 2048·i … of the aggregation. -/
theorem outAt_last_apply (c : Dev nD) (t : Fin cfg0.N) (h : t.val % 16 = 15) (r : Fin 2048) (d : Fin 32) :
    outAt V c t (ix2 r d)
      = Cert.Spec.agg (V c main_arg0) (V c main_arg1)
          (ix2 (⟨2048 * (t.val / 16) + r.val, by have := t.isLt; have hN : cfg0.N = 128 := N_0; omega⟩ : Fin 16384) d) := by
  have hl : isLast (grid0.coords t) := (isLast_iff t).mpr h
  have hR : 2048 * (t.val / 16) + r.val < 16384 := by have := t.isLt; have hN : cfg0.N = 128 := N_0; omega
  unfold outAt
  rw [dif_pos hl]
  unfold outLast
  rw [pay3_apply, xBlk_eq V c t, ldDst_apply (V c main_arg0) t hl r d ⟨2048 * (t.val / 16) + r.val, hR⟩ rfl,
    accAt_apply V c t.val t.isLt r d ⟨2048 * (t.val / 16) + r.val, hR⟩ rfl, h]
  exact (agg_eq_range (V c main_arg0) (V c main_arg1) ⟨2048 * (t.val / 16) + r.val, hR⟩ d).symm

end Cert.KernelIdeal.HandValue

end
-- ==== Proof.Val.Arrays.lean ====
/-
  The two regions' output arrays, read back at the ideal instance.

  Region 0: the output's blocks are written back at the points with j = 15, block i holding rows 2048·i … of the
  aggregation; the eight blocks tile the array, so after the region the array IS the aggregation of the region's two
  inputs. Region 1: one point writes the whole 1 × 16 result, the body's closed form of the nine arrays the region finds.
-/
import proofs.«105560_j76570676953656_2_alg».proof.Proof.KI.Dat0
import proofs.«105560_j76570676953656_2_alg».proof.Proof.KI.Dat1
import proofs.«105560_j76570676953656_2_alg».proof.Proof.Val.Agg
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0 -/

/-- The output window's block index at point t is (t / 16, 0), decided over the grid. -/
theorem out_idx : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a flushing point writes back is its block of the aggregation. -/
theorem flushed_agg (c : Dev nD) (t : Fin cfg0.N) (hf : (cfg0.win 2).flush t = true) :
    (dat0 V c).flushed 2 t = ((cfg0.win 2).blk t).view.read (Elt Ideal) (Cert.Spec.agg (V c main_arg0) (V c main_arg1)) := by
  have h15 : t.val % 16 = 15 := (flush0_2 t).mp hf
  show (cfg0.win 2).cut (grid0.coords t) ((dat0 V c).after 2 t) = _
  rw [after0_2]
  obtain ⟨e0, e1⟩ := out_idx t
  funext j
  obtain ⟨r, d, rfl⟩ : ∃ (r : Fin 2048) (d : Fin 32), j = ix2 r d := ⟨j 0, j 1, eq_ix2 j⟩
  show outAt V c t (ix2 r d) = Cert.Spec.agg (V c main_arg0) (V c main_arg1) (((cfg0.win 2).blk t).view.emb (ix2 r d))
  rw [outAt_last_apply V c t h15 r d]
  congr 1
  funext a; apply Fin.ext
  match a with
  | ⟨0, _⟩ => show 2048 * (t.val / 16) + r.val = win0_2.index t (0 : Fin 2) * 2048 + 1 * r.val; omega
  | ⟨1, _⟩ => show d.val = win0_2.index t (1 : Fin 2) * 32 + 1 * d.val; omega

/-- An index of the array is in point t's block iff each coordinate is in the block's range on its axis. -/
theorem mem_out_blk (t : Fin cfg0.N) (i : S16384x32.Idx) :
    i ∈ ((cfg0.win 2).blk t).view.set ↔ ∀ a : Fin 2, win0_2.index t a * S2048x32.size a ≤ (i a).val ∧ (i a).val < win0_2.index t a * S2048x32.size a + S2048x32.size a := by
  show i ∈ ((View.whole main_v0).slice (win0_2.rect t)).set ↔ _
  rw [View.set_slice_whole, Rect.mem_set_unit]
  exact Iff.rfl

/-- Row R of the array lies in the block written back at the last point of grid row R / 2048. -/
theorem out_cover (i : S16384x32.Idx) :
    ∃ t : Fin cfg0.N, (cfg0.win 2).flush t = true ∧ i ∈ ((cfg0.win 2).blk t).view.set := by
  have hi0 : (i 0).val < 16384 := (i 0).isLt
  have hi1 : (i 1).val < 32 := (i 1).isLt
  have hN : cfg0.N = 128 := N_0
  let t : Fin cfg0.N := ⟨16 * ((i 0).val / 2048) + 15, by omega⟩
  have ht : t.val = 16 * ((i 0).val / 2048) + 15 := rfl
  obtain ⟨e0, e1⟩ := out_idx t
  refine ⟨t, (flush0_2 t).mpr (by omega), ?_⟩
  rw [mem_out_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 32 ≤ (i 1).val ∧ (i 1).val < win0_2.index t (1 : Fin 2) * 32 + 32; omega

/-- After region 0 its output array is the aggregation of the two arrays it found. -/
theorem agg_array (c : Dev nD) :
    (dat0 V c).arrAt 2 cfg0.N = Cert.Spec.agg (V c main_arg0) (V c main_arg1) :=
  (dat0 V c).arrAt_eq_of_cover 2 (Cert.Spec.agg (V c main_arg0) (V c main_arg1)) (fun t hf => flushed_agg V c t hf) (out_cover)

/-! ## Region 1 -/

/-- Each operand's block at the one point is the whole array the region finds: its block index is zero on every axis. -/
theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem blk1_0 (c : Dev nD) (t : Fin cfg1.N) : iblk1 V c 0 t = V c main_v0 := by
  obtain ⟨e0, e1⟩ := idx1_0 t
  funext j
  show V c main_v0 (((cfg1.win 0).blk t).view.emb j) = V c main_v0 j
  refine congrArg (V c main_v0) (funext fun a => Fin.ext ?_)
  match a with
  | ⟨0, _⟩ => show win1_0.index t (0 : Fin 2) * 16384 + 1 * (j 0).val = (j 0).val; omega
  | ⟨1, _⟩ => show win1_0.index t (1 : Fin 2) * 32 + 1 * (j 1).val = (j 1).val; omega
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem blk1_1 (c : Dev nD) (t : Fin cfg1.N) : iblk1 V c 1 t = V c main_arg2 := by
  obtain ⟨e0, e1⟩ := idx1_1 t
  funext j
  show V c main_arg2 (((cfg1.win 1).blk t).view.emb j) = V c main_arg2 j
  refine congrArg (V c main_arg2) (funext fun a => Fin.ext ?_)
  match a with
  | ⟨0, _⟩ => show win1_1.index t (0 : Fin 2) * 32 + 1 * (j 0).val = (j 0).val; omega
  | ⟨1, _⟩ => show win1_1.index t (1 : Fin 2) * 32 + 1 * (j 1).val = (j 1).val; omega
theorem idx1_2 : ∀ t : Fin cfg1.N, win1_2.index t (0 : Fin 1) = 0 :=
  (by decide +kernel : ∀ t : Fin grid1.N, win1_2.index t (0 : Fin 1) = 0)
theorem blk1_2 (c : Dev nD) (t : Fin cfg1.N) : iblk1 V c 2 t = V c main_arg3 := by
  obtain e0 := idx1_2 t
  funext j
  show V c main_arg3 (((cfg1.win 2).blk t).view.emb j) = V c main_arg3 j
  refine congrArg (V c main_arg3) (funext fun a => Fin.ext ?_)
  match a with
  | ⟨0, _⟩ => show win1_2.index t (0 : Fin 1) * 32 + 1 * (j 0).val = (j 0).val; omega
theorem idx1_3 : ∀ t : Fin cfg1.N, win1_3.index t (0 : Fin 1) = 0 :=
  (by decide +kernel : ∀ t : Fin grid1.N, win1_3.index t (0 : Fin 1) = 0)
theorem blk1_3 (c : Dev nD) (t : Fin cfg1.N) : iblk1 V c 3 t = V c main_arg4 := by
  obtain e0 := idx1_3 t
  funext j
  show V c main_arg4 (((cfg1.win 3).blk t).view.emb j) = V c main_arg4 j
  refine congrArg (V c main_arg4) (funext fun a => Fin.ext ?_)
  match a with
  | ⟨0, _⟩ => show win1_3.index t (0 : Fin 1) * 32 + 1 * (j 0).val = (j 0).val; omega
theorem idx1_4 : ∀ t : Fin cfg1.N, win1_4.index t (0 : Fin 1) = 0 :=
  (by decide +kernel : ∀ t : Fin grid1.N, win1_4.index t (0 : Fin 1) = 0)
theorem blk1_4 (c : Dev nD) (t : Fin cfg1.N) : iblk1 V c 4 t = V c main_arg5 := by
  obtain e0 := idx1_4 t
  funext j
  show V c main_arg5 (((cfg1.win 4).blk t).view.emb j) = V c main_arg5 j
  refine congrArg (V c main_arg5) (funext fun a => Fin.ext ?_)
  match a with
  | ⟨0, _⟩ => show win1_4.index t (0 : Fin 1) * 32 + 1 * (j 0).val = (j 0).val; omega
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem blk1_5 (c : Dev nD) (t : Fin cfg1.N) : iblk1 V c 5 t = V c main_arg6 := by
  obtain ⟨e0, e1⟩ := idx1_5 t
  funext j
  show V c main_arg6 (((cfg1.win 5).blk t).view.emb j) = V c main_arg6 j
  refine congrArg (V c main_arg6) (funext fun a => Fin.ext ?_)
  match a with
  | ⟨0, _⟩ => show win1_5.index t (0 : Fin 2) * 32 + 1 * (j 0).val = (j 0).val; omega
  | ⟨1, _⟩ => show win1_5.index t (1 : Fin 2) * 32 + 1 * (j 1).val = (j 1).val; omega
theorem idx1_6 : ∀ t : Fin cfg1.N, win1_6.index t (0 : Fin 1) = 0 :=
  (by decide +kernel : ∀ t : Fin grid1.N, win1_6.index t (0 : Fin 1) = 0)
theorem blk1_6 (c : Dev nD) (t : Fin cfg1.N) : iblk1 V c 6 t = V c main_arg7 := by
  obtain e0 := idx1_6 t
  funext j
  show V c main_arg7 (((cfg1.win 6).blk t).view.emb j) = V c main_arg7 j
  refine congrArg (V c main_arg7) (funext fun a => Fin.ext ?_)
  match a with
  | ⟨0, _⟩ => show win1_6.index t (0 : Fin 1) * 32 + 1 * (j 0).val = (j 0).val; omega
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem blk1_7 (c : Dev nD) (t : Fin cfg1.N) : iblk1 V c 7 t = V c main_arg8 := by
  obtain ⟨e0, e1⟩ := idx1_7 t
  funext j
  show V c main_arg8 (((cfg1.win 7).blk t).view.emb j) = V c main_arg8 j
  refine congrArg (V c main_arg8) (funext fun a => Fin.ext ?_)
  match a with
  | ⟨0, _⟩ => show win1_7.index t (0 : Fin 2) * 32 + 1 * (j 0).val = (j 0).val; omega
  | ⟨1, _⟩ => show win1_7.index t (1 : Fin 2) * 16 + 1 * (j 1).val = (j 1).val; omega
theorem idx1_8 : ∀ t : Fin cfg1.N, win1_8.index t (0 : Fin 1) = 0 :=
  (by decide +kernel : ∀ t : Fin grid1.N, win1_8.index t (0 : Fin 1) = 0)
theorem blk1_8 (c : Dev nD) (t : Fin cfg1.N) : iblk1 V c 8 t = V c main_arg9 := by
  obtain e0 := idx1_8 t
  funext j
  show V c main_arg9 (((cfg1.win 8).blk t).view.emb j) = V c main_arg9 j
  refine congrArg (V c main_arg9) (funext fun a => Fin.ext ?_)
  match a with
  | ⟨0, _⟩ => show win1_8.index t (0 : Fin 1) * 16 + 1 * (j 0).val = (j 0).val; omega

theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- The result's array after region 1 is whatever the one point stores, for any name G of it: the one block is the
    whole array. -/
theorem arr9_of (c : Dev nD) (G : Vec Ideal S1x16 .f32) (h : ∀ t, out1 V c t = G) : (dat1 V c).arrAt 9 cfg1.N = G := by
  refine (dat1 V c).arrAt_eq_of_cover 9 G (fun t hf => ?_) (fun i => ⟨t1_0, flush1_9 t1_0, ?_⟩)
  · show (cfg1.win 9).cut (grid1.coords t) ((dat1 V c).after 9 t) = _
    rw [after1_9, h t]
    obtain ⟨e0, e1⟩ := idx1_9 t
    funext j
    show G j = G (((cfg1.win 9).blk t).view.emb j)
    refine congrArg G (funext fun a => Fin.ext ?_)
    match a with
    | ⟨0, _⟩ => show (j 0).val = win1_9.index t (0 : Fin 2) * 1 + 1 * (j 0).val; omega
    | ⟨1, _⟩ => show (j 1).val = win1_9.index t (1 : Fin 2) * 16 + 1 * (j 1).val; omega
  · obtain ⟨e0, e1⟩ := idx1_9 t1_0
    have hi0 : (i 0).val < 1 := (i 0).isLt
    have hi1 : (i 1).val < 16 := (i 1).isLt
    show i ∈ ((View.whole main_v1).slice (win1_9.rect t1_0)).set
    rw [View.set_slice_whole, Rect.mem_set_unit]
    intro a
    match a with
    | ⟨0, _⟩ => show win1_9.index t1_0 (0 : Fin 2) * 1 ≤ (i 0).val ∧ (i 0).val < win1_9.index t1_0 (0 : Fin 2) * 1 + 1; omega
    | ⟨1, _⟩ => show win1_9.index t1_0 (1 : Fin 2) * 16 ≤ (i 1).val ∧ (i 1).val < win1_9.index t1_0 (1 : Fin 2) * 16 + 16; omega

/-- After region 1 the result's array is the body's closed form of the nine arrays the region found. -/
theorem mlp_array (c : Dev nD) :
    (dat1 V c).arrAt 9 cfg1.N = mlpOut (V c main_v0) (V c main_arg2) (V c main_arg3) (V c main_arg4) (V c main_arg5)
      (V c main_arg6) (V c main_arg7) (V c main_arg8) (V c main_arg9) :=
  arr9_of V c _ (fun t => by
    unfold out1
    rw [blk1_0, blk1_1, blk1_2, blk1_3, blk1_4, blk1_5, blk1_6, blk1_7, blk1_8])

end Cert.KernelIdeal.HandValue

end
-- ==== Proof.Spec.Mlp.lean ====
/-
  The tail of the network, over the extended reals, as one function of the aggregated features h and the eight
  parameters:

      h1   = h · W1 + b1                                        (16384 × 32; b1 added to every row)
      mu   = (0 + Σ_rows h1) / 16384                            (per column)
      var  = (0 + Σ_rows (h1 − mu) · (h1 − mu)) / 16384         (per column)
      hn   = max( ((h1 − mu) · rsqrt(var + eps)) · gamma + beta , 0 )
      h2   = max( hn · W2 + b2 , 0 )
      pool = (0 + Σ_rows h2) / 16384                            (one row of 32)
      out  = pool · Wf + bf                                     (1 × 16)

  in exactly this order of operations. It is built from a few combinators on arrays of extended reals: the matrix
  product as a sum over the contracted coordinate, a vector laid along every row, the sum down each column begun at
  the zero word, a word at every index, and the pointwise operations. The float literals stay the words they are
  (0x00000000 is 0, 0x46800000 is 16384, 0x3727C5AC is the eps of the normalisation). The module names no program, so that the
  kernel's side and the reference's side can both be shown equal to it.
-/
import Idealize.ShloMosaic.PureOps.Ideal
import Idealize.ShloMosaic.Lib.ValueIdx

noncomputable section

open scoped BigOperators

namespace Cert.Spec

open Idealize.ShloMosaic Idealize.ShloMosaic.ValueIdx

namespace Tail

/-! ## The combinators -/

/-- The matrix product: (A · B)(a, b) = Σ_c A(a, c) · B(c, b). -/
def matP {m k n : Nat} (A : FVec Ideal ⟨2, ![m, k]⟩ .f32) (B : FVec Ideal ⟨2, ![k, n]⟩ .f32) : FVec Ideal ⟨2, ![m, n]⟩ .f32 :=
  fun i => ∑ c : Fin k, A (ix2 (n0 := m) (n1 := k) (i 0) c) * B (ix2 (n0 := k) (n1 := n) c (i 1))

/-- A vector laid along every one of m rows: (rows v)(a, b) = v(b). -/
def rows {m n : Nat} (v : FVec Ideal ⟨1, ![n]⟩ .f32) : FVec Ideal ⟨2, ![m, n]⟩ .f32 :=
  fun i => v (ix1 (n := n) (i 1))

/-- The sum down each column, begun at the zero word: (colSum X)(b) = 0 + Σ_a X(a, b). -/
def colSum {m n : Nat} (X : FVec Ideal ⟨2, ![m, n]⟩ .f32) : FVec Ideal ⟨1, ![n]⟩ .f32 :=
  fun j => Ideal.ofBits .f32 0x00000000#32 + ∑ a : Fin m, X (ix2 (n0 := m) (n1 := n) a (j 0))

/-- The float a 32-bit word encodes, at every index. -/
def splat (s : Shape) (w : BitVec 32) : FVec Ideal s .f32 := fun _ => Ideal.ofBits .f32 w

variable {s : Shape}

/-- Pointwise sum. -/
def vadd (X Y : FVec Ideal s .f32) : FVec Ideal s .f32 := fun i => X i + Y i
/-- Pointwise difference. -/
def vsub (X Y : FVec Ideal s .f32) : FVec Ideal s .f32 := fun i => X i - Y i
/-- Pointwise product. -/
def vmul (X Y : FVec Ideal s .f32) : FVec Ideal s .f32 := fun i => X i * Y i
/-- Pointwise maximum. -/
def vmax (X Y : FVec Ideal s .f32) : FVec Ideal s .f32 := fun i => max (X i) (Y i)
/-- Pointwise quotient (the ideal division, corners included). -/
def vdiv (X Y : FVec Ideal s .f32) : FVec Ideal s .f32 := fun i => Ideal.div (X i) (Y i)
/-- Pointwise reciprocal square root. -/
def vrsqrt (X : FVec Ideal s .f32) : FVec Ideal s .f32 := fun i => Ideal.rsqrt (X i)

/-! ## The layers -/

/-- A linear layer: X · W with the bias b added to every row. -/
def linear {m k n : Nat} (X : FVec Ideal ⟨2, ![m, k]⟩ .f32) (W : FVec Ideal ⟨2, ![k, n]⟩ .f32) (b : FVec Ideal ⟨1, ![n]⟩ .f32) :
    FVec Ideal ⟨2, ![m, n]⟩ .f32 :=
  vadd (matP X W) (rows b)

/-- max(X, 0), the value first. -/
def relu (X : FVec Ideal s .f32) : FVec Ideal s .f32 := vmax X (splat s 0x00000000#32)

/-- The mean of each column over the 16384 rows: the column sum divided by the word of 16384. -/
def colMean {n : Nat} (X : FVec Ideal ⟨2, ![16384, n]⟩ .f32) : FVec Ideal ⟨1, ![n]⟩ .f32 :=
  vdiv (colSum X) (splat ⟨1, ![n]⟩ 0x46800000#32)

/-- X with its column means taken off. -/
def centered {n : Nat} (X : FVec Ideal ⟨2, ![16384, n]⟩ .f32) : FVec Ideal ⟨2, ![16384, n]⟩ .f32 :=
  vsub X (rows (colMean X))

/-- The variance of each column: the mean of the squared centred entries. -/
def colVar {n : Nat} (X : FVec Ideal ⟨2, ![16384, n]⟩ .f32) : FVec Ideal ⟨1, ![n]⟩ .f32 :=
  colMean (vmul (centered X) (centered X))

/-- Normalisation by the batch's own statistics, then scale and shift:
    ((X − mu) · rsqrt(var + eps)) · gamma + beta. -/
def batchNorm {n : Nat} (X : FVec Ideal ⟨2, ![16384, n]⟩ .f32) (g be : FVec Ideal ⟨1, ![n]⟩ .f32) : FVec Ideal ⟨2, ![16384, n]⟩ .f32 :=
  vadd (vmul (vmul (centered X) (rows (vrsqrt (vadd (colVar X) (splat ⟨1, ![n]⟩ 0x3727C5AC#32))))) (rows g)) (rows be)

/-- The mean over the 16384 rows as one row: the column sums laid as a 1 × n row, divided by the word of 16384. -/
def rowMean {n : Nat} (X : FVec Ideal ⟨2, ![16384, n]⟩ .f32) : FVec Ideal ⟨2, ![1, n]⟩ .f32 :=
  vdiv (rows (m := 1) (colSum X)) (splat ⟨2, ![1, n]⟩ 0x46800000#32)

end Tail

open Tail

/-- Linear → BatchNorm → ReLU → Linear → ReLU → mean over the rows → Linear. -/
def mlp (h : Vec Ideal ⟨2, ![16384, 32]⟩ .f32) (W1 : Vec Ideal ⟨2, ![32, 32]⟩ .f32) (b1 g be : Vec Ideal ⟨1, ![32]⟩ .f32)
    (W2 : Vec Ideal ⟨2, ![32, 32]⟩ .f32) (b2 : Vec Ideal ⟨1, ![32]⟩ .f32) (Wf : Vec Ideal ⟨2, ![32, 16]⟩ .f32)
    (bf : Vec Ideal ⟨1, ![16]⟩ .f32) : Vec Ideal ⟨2, ![1, 16]⟩ .f32 :=
  linear (rowMean (relu (linear (relu (batchNorm (linear h W1 b1) g be)) W2 b2))) Wf bf

end Cert.Spec

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Val.MlpKernel.lean ====
/-
  The kernel's side of the network's tail, at the ideal values: what region 1's one grid point stores into the 1 × 16
  result is the specification's function of the aggregated features and the eight parameters.

  Each distinct operation of the body is first read, as a whole array, as one of the specification's combinators:
  a vector recast as one row and that row broadcast down the rows is the vector laid along every row; a sum over the
  row axis from the zero word is the column sum (the zero word is 0, so beginning the sum at it changes nothing); a
  matrix product into the zero accumulator is the plain sum over the contracted coordinate, the narrowing casts of
  its operands being the identity on extended reals; a broadcast word is that word at every index; the pointwise
  operations are the pointwise operations. The body's term is then rewritten, operation by operation, into the
  specification's own nest of combinators.
-/
import proofs.«105560_j76570676953656_2_alg».proof.Proof.KI.Blocks1
import proofs.«105560_j76570676953656_2_alg».proof.Proof.Spec.Mlp
import proofs.«105560_j76570676953656_2_alg».proof.Proof.LibMatmulPlain
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand Idealize.ShloMosaic Idealize.ShloMosaic.ValueIdx
open Cert.Spec Cert.Spec.Tail

/-! ## The layout operations -/

/-- A vector of 32 recast as a 1 × 32 block is the vector laid along its one row. -/
theorem oneRow32_eq (v : FVec Ideal S32 .f32) (h : S32.ShapeCasts S1x32) : shapeCast S1x32 v h = rows (m := 1) v := by
  funext i
  obtain ⟨u, b, rfl⟩ : ∃ (u : Fin 1) (b : Fin 32), i = ix2 u b := ⟨i 0, i 1, eq_ix2 i⟩
  exact shapeCast_a_1a_apply v h u b

/-- A vector of 16 recast as a 1 × 16 block is the vector laid along its one row. -/
theorem oneRow16_eq (v : FVec Ideal S16 .f32) (h : S16.ShapeCasts S1x16) : shapeCast S1x16 v h = rows (m := 1) v := by
  funext i
  obtain ⟨u, b, rfl⟩ : ∃ (u : Fin 1) (b : Fin 16), i = ix2 u b := ⟨i 0, i 1, eq_ix2 i⟩
  exact shapeCast_a_1a_apply v h u b

/-- The one row broadcast down the 16384 rows is the vector laid along every row. -/
theorem everyRow_eq (v : FVec Ideal S32 .f32) (h : S1x32.Broadcasts S16384x32) :
    broadcastTo S16384x32 (rows (m := 1) v) h = rows (m := 16384) v := by
  funext i
  obtain ⟨a, b, rfl⟩ : ∃ (a : Fin 16384) (b : Fin 32), i = ix2 a b := ⟨i 0, i 1, eq_ix2 i⟩
  exact broadcastTo_1b_ab_apply (rows (m := 1) v) h a b

/-- A word broadcast to a shape is the word at every index. -/
theorem splat_eq (s : Shape) (w : BitVec 32) : broadcast s (Scalar.ofBits (F := Ideal) .f32 w) = splat s w := rfl

/-! ## The sum over the rows -/

/-- The sum over the row axis from the zero word is the column sum: the zero word is 0. -/
theorem colSum_eq (X : FVec Ideal S16384x32 .f32) (h : S16384x32.Reduces [0] S32) (hφ : FKind.Formats .f32)
    (hacc : (0x00000000#32 : BitVec 32) = 0x00000000#32) :
    multiReduction (F := Ideal) .add [0] S32 X 0x00000000#32 h hφ hacc = colSum X := by
  funext j
  refine (Ideal.multiReduction_add_single X 0x00000000#32 h hφ hacc j).trans ?_
  show _ = Ideal.ofBits .f32 0x00000000#32 + _
  rw [Ideal.ofBits_zero_f32, zero_add]
  exact Finset.sum_congr rfl fun k _ => congrArg X (funext fun a => Fin.ext (by match a with | ⟨0, _⟩ => rfl | ⟨1, _⟩ => rfl))

/-! ## The matrix products -/

/-- The 16384 × 32 by 32 × 32 product into the zero accumulator is the plain product; the narrowing casts of its
    operands are the identity on extended reals. -/
theorem matP_rows_eq (A : FVec Ideal S16384x32 .f32) (B : FVec Ideal S32x32 .f32) (hb : FTy.bits .bf16 < FTy.bits .f32) :
    matmul dot_S16384x32_S32x32_S16384x32_1_0_0_1_n_n none (truncf .bf16 A hb) (truncf .bf16 B hb)
      (constant (F := Ideal) S16384x32 .f32 0x00000000#32) = matP A B := by
  funext i
  obtain ⟨a, b, rfl⟩ : ∃ (a : Fin 16384) (b : Fin 32), i = ix2 a b := ⟨i 0, i 1, eq_ix2 i⟩
  exact Cert.LibMatmulPlain.matmul_plain_zero_apply (m := 16384) (k := 32) (n := 32) none (truncf .bf16 A hb) (truncf .bf16 B hb) a b

/-- The 1 × 32 by 32 × 16 product into the zero accumulator is the plain product. -/
theorem matP_pool_eq (A : FVec Ideal S1x32 .f32) (B : FVec Ideal S32x16 .f32) (hb : FTy.bits .bf16 < FTy.bits .f32) :
    matmul dot_S1x32_S32x16_S1x16_1_0_0_1_n_n none (truncf .bf16 A hb) (truncf .bf16 B hb)
      (constant (F := Ideal) S1x16 .f32 0x00000000#32) = matP A B := by
  funext i
  obtain ⟨a, b, rfl⟩ : ∃ (a : Fin 1) (b : Fin 16), i = ix2 a b := ⟨i 0, i 1, eq_ix2 i⟩
  exact Cert.LibMatmulPlain.matmul_plain_zero_apply (m := 1) (k := 32) (n := 16) none (truncf .bf16 A hb) (truncf .bf16 B hb) a b

/-! ## The pointwise operations -/

variable {s : Shape}

theorem vadd_eq (X Y : FVec Ideal s .f32) : addf X Y = vadd X Y := rfl
theorem vsub_eq (X Y : FVec Ideal s .f32) : subf X Y = vsub X Y := rfl
theorem vmul_eq (X Y : FVec Ideal s .f32) : mulf X Y = vmul X Y := rfl
theorem vmax_eq (X Y : FVec Ideal s .f32) : maximumf X Y = vmax X Y := rfl
theorem vdiv_eq (X Y : FVec Ideal s .f32) : divf X Y = vdiv X Y := rfl
theorem vrsqrt_eq (X : FVec Ideal s .f32) : rsqrt X = vrsqrt X := rfl

/-! ## The body -/

/-- The first sixty statements: the first linear layer, the normalisation by the batch's statistics and the ReLU, then
    the narrowing cast the second product's operand carries. -/
theorem part1_eq (h : Vec Ideal S16384x32 .f32) (W1 : Vec Ideal S32x32 .f32) (b1 g be : Vec Ideal S32 .f32) :
    k1_pay2 (F := Ideal) h W1 b1 g be = truncf .bf16 (relu (batchNorm (linear h W1 b1) g be)) bitsLt_bf16_f32 := by
  unfold k1_pay2
  simp -index only [shapeCast_self, oneRow32_eq, everyRow_eq, splat_eq, colSum_eq, matP_rows_eq, vadd_eq, vsub_eq, vmul_eq, vmax_eq,
    vdiv_eq, vrsqrt_eq]
  rfl

/-- What the point stores is the specification's tail. -/
theorem mlpOut_eq (h : Vec Ideal S16384x32 .f32) (W1 : Vec Ideal S32x32 .f32) (b1 g be : Vec Ideal S32 .f32) (W2 : Vec Ideal S32x32 .f32)
    (b2 : Vec Ideal S32 .f32) (Wf : Vec Ideal S32x16 .f32) (bf : Vec Ideal S16 .f32) :
    mlpOut (F := Ideal) h W1 b1 g be W2 b2 Wf bf = Cert.Spec.mlp h W1 b1 g be W2 b2 Wf bf := by
  unfold mlpOut
  rw [part1_eq]
  unfold k1_pay1 k1_pay3
  simp -index only [oneRow32_eq, oneRow16_eq, everyRow_eq, splat_eq, colSum_eq, matP_rows_eq, matP_pool_eq, vadd_eq, vmax_eq, vdiv_eq]
  rfl

end Cert.KernelIdeal.HandValue

end
-- ==== Proof.Ref.Agg.lean ====
/-
  The reference's aggregation is the specification's: its third value, x plus the contraction of adj (every entry
  converted to the real it is) with x over the source row, read index by index.
-/
import proofs.«105560_j76570676953656_2_alg».proof.Proof.Spec.Agg
import proofs.«105560_j76570676953656_2_alg».proof.Proof.Gen.ReferenceIdeal.Read
import Idealize.ShloMosaic.Lib.ValueIdx
import Idealize.ShloMosaic.PureOps.Ideal.Laws

set_option maxRecDepth 16384

noncomputable section

namespace Cert.ReferenceIdeal.HandValue

open Cert.ReferenceIdeal Idealize.ShloMosaic Idealize.ShloMosaic.ValueIdx

/-- The contraction's left index at source row k is (k, R): adj is read transposed. -/
theorem lidx_eq (i : S16384x32.Idx) (k : Fin 16384) :
    Cert.ReferenceIdeal.Read.lidx_main_v1 i k = ix2 k (i 0) :=
  funext fun a => Fin.ext (by match a with | ⟨0, _⟩ => rfl | ⟨1, _⟩ => rfl)

/-- The contraction's right index at source row k is (k, d). -/
theorem ridx_eq (i : S16384x32.Idx) (k : Fin 16384) :
    Cert.ReferenceIdeal.Read.ridx_main_v1 i k = ix2 k (i 1) :=
  funext fun a => Fin.ext (by match a with | ⟨0, _⟩ => rfl | ⟨1, _⟩ => rfl)

/-- The reference's third value (x + the einsum) is the aggregation. -/
theorem ref_agg (x : Vec Ideal S16384x32 .f32) (a : Vec Ideal S16384x16384 .i32) :
    Cert.ReferenceIdeal.Read.val_main_v2 (F := Ideal) x a = Cert.Spec.agg x a := by
  funext i
  rw [Cert.ReferenceIdeal.Read.val_main_v2_apply, Cert.ReferenceIdeal.Read.val_main_v1_apply]
  simp only [Cert.ReferenceIdeal.Read.val_main_v0_apply, lidx_eq, ridx_eq]
  rfl

end Cert.ReferenceIdeal.HandValue

end
-- ==== Proof.Ref.MlpRef.lean ====
/-
  The reference's side of the network's tail, at the ideal values: the reference's last value, read one operation at a
  time, is the specification's function of its third value (the aggregated features h = x + adjᵀ · x, which stays
  folded) and the eight parameters.

  Each distinct operation of the reference is first read, as a whole array, as one of the specification's
  combinators: a vector placed on the second axis of a one-row block, and that block copied down the rows, is the
  vector laid along every row; the host's sum over the row axis from the zero word is the column sum; the host's
  product contracting the left operand's columns with the right operand's rows is the plain sum over the contracted
  coordinate; a scalar word broadcast to a shape is that word at every index; the host's quotient and reciprocal
  square root and the pointwise operations are the pointwise operations. The reference's stages are then unfolded
  down to (not including) the aggregation and rewritten, operation by operation, into the specification's own nest of
  combinators.
-/
import proofs.«105560_j76570676953656_2_alg».proof.Proof.Gen.ReferenceIdeal.Read
import proofs.«105560_j76570676953656_2_alg».proof.Proof.Spec.Mlp
import Idealize.ShloMosaic.Lib.ValueIdx
import Idealize.ShloMosaic.Lib.StackMember
import Idealize.ShloMosaic.Lib.Pipeline.Value
import Idealize.ShloMosaic.PureOps.Ideal.Laws

set_option maxRecDepth 16384

noncomputable section

open scoped BigOperators

namespace Cert.ReferenceIdeal.HandValue

open Cert.ReferenceIdeal Idealize.ShloMosaic Idealize.ShloMosaic.ValueIdx Idealize.ShloMosaic.StableHlo
open Cert.Spec Cert.Spec.Tail

/-! ## The layout operations -/

/-- A vector of 32 placed on the second axis of a 1 × 32 block is the vector laid along its one row. -/
theorem oneRow32_eq (v : FVec Ideal S32 .f32) (h : S32.BroadcastsInDim S1x32 (![1] : Fin 1 → Fin S1x32.rank)) :
    broadcastInDim S1x32 ![1] h v = rows (m := 1) v := by
  funext i
  obtain ⟨u, b, rfl⟩ : ∃ (u : Fin 1) (b : Fin 32), i = ix2 u b := ⟨i 0, i 1, eq_ix2 i⟩
  exact broadcastInDim_apply _ h v (ix2 u b) (ix1 b) (fun a => match a with
    | ⟨0, _⟩ => by show b.val = if (32 : Nat) = 1 then 0 else b.val; rw [if_neg (by decide)])

/-- A vector of 16 placed on the second axis of a 1 × 16 block is the vector laid along its one row. -/
theorem oneRow16_eq (v : FVec Ideal S16 .f32) (h : S16.BroadcastsInDim S1x16 (![1] : Fin 1 → Fin S1x16.rank)) :
    broadcastInDim S1x16 ![1] h v = rows (m := 1) v := by
  funext i
  obtain ⟨u, b, rfl⟩ : ∃ (u : Fin 1) (b : Fin 16), i = ix2 u b := ⟨i 0, i 1, eq_ix2 i⟩
  exact broadcastInDim_apply _ h v (ix2 u b) (ix1 b) (fun a => match a with
    | ⟨0, _⟩ => by show b.val = if (16 : Nat) = 1 then 0 else b.val; rw [if_neg (by decide)])

/-- The one row copied down the 16384 rows is the vector laid along every row. -/
theorem everyRow_eq (v : FVec Ideal S32 .f32) (h : S1x32.BroadcastsInDim S16384x32 (![0, 1] : Fin 2 → Fin S16384x32.rank)) :
    broadcastInDim S16384x32 ![0, 1] h (rows (m := 1) v) = rows (m := 16384) v := by
  funext i
  obtain ⟨a, b, rfl⟩ : ∃ (a : Fin 16384) (b : Fin 32), i = ix2 a b := ⟨i 0, i 1, eq_ix2 i⟩
  exact broadcastInDim_apply _ h (rows (m := 1) v) (ix2 a b) (ix2 (0 : Fin 1) b) (fun ax => match ax with
    | ⟨0, _⟩ => by show 0 = if (1 : Nat) = 1 then 0 else a.val; rw [if_pos rfl]
    | ⟨1, _⟩ => by show b.val = if (32 : Nat) = 1 then 0 else b.val; rw [if_neg (by decide)])

/-- A scalar word broadcast to a shape is the word at every index. -/
theorem splat_eq (s : Shape) (dims : Fin S_.rank → Fin s.rank) (h : S_.BroadcastsInDim s dims) (w : BitVec 32) :
    broadcastInDim s dims h (constant (F := Ideal) S_ .f32 w) = splat s w := rfl

/-! ## The sum over the rows -/

/-- The host's sum over the row axis from the zero word is the column sum. -/
theorem colSum_eq (X : FVec Ideal S16384x32 .f32) (h : S16384x32.ReducesTo [0] S32) (hu : 0 < S_.numel) :
    Host.reduceAdd (F := Ideal) X (constant (F := Ideal) S_ .f32 0x00000000#32) h hu = colSum X := by
  funext j
  simp only [Host.reduceAdd, Ideal.hostReduceAdd_def]
  rw [Ideal.hostReduceAdd_single h (by decide)]
  show Ideal.ofBits .f32 0x00000000#32 + _ = Ideal.ofBits .f32 0x00000000#32 + _
  refine congrArg (_ + ·) (Finset.sum_congr rfl fun k _ => ?_)
  exact congrArg X (funext fun a => Fin.ext (by match a with | ⟨0, _⟩ => rfl | ⟨1, _⟩ => rfl))

/-! ## The matrix products -/

/-- The host's 16384 × 32 by 32 × 32 product is the plain product. -/
theorem matP_rows_eq (A : FVec Ideal S16384x32 .f32) (B : FVec Ideal S32x32 .f32) :
    Host.dotGeneral (F := Ideal) dot_S16384x32_S32x32_S16384x32_1_0_0_1_n_n none A B = matP A B := by
  funext i
  obtain ⟨a, b, rfl⟩ : ∃ (a : Fin 16384) (b : Fin 32), i = ix2 a b := ⟨i 0, i 1, eq_ix2 i⟩
  exact StackMember.dotGeneral_plain_apply (m := 16384) (k := 32) (n := 32) none A B a b

/-- The host's 1 × 32 by 32 × 16 product is the plain product. -/
theorem matP_pool_eq (A : FVec Ideal S1x32 .f32) (B : FVec Ideal S32x16 .f32) :
    Host.dotGeneral (F := Ideal) dot_S1x32_S32x16_S1x16_1_0_0_1_n_n none A B = matP A B := by
  funext i
  obtain ⟨a, b, rfl⟩ : ∃ (a : Fin 1) (b : Fin 16), i = ix2 a b := ⟨i 0, i 1, eq_ix2 i⟩
  exact StackMember.dotGeneral_plain_apply (m := 1) (k := 32) (n := 16) none A B a b

/-! ## The pointwise operations -/

variable {s : Shape}

theorem vadd_eq (X Y : FVec Ideal s .f32) : addf X Y = vadd X Y := rfl
theorem vsub_eq (X Y : FVec Ideal s .f32) : subf X Y = vsub X Y := rfl
theorem vmul_eq (X Y : FVec Ideal s .f32) : mulf X Y = vmul X Y := rfl
theorem vmax_eq (X Y : FVec Ideal s .f32) : maximumf X Y = vmax X Y := rfl
theorem vdiv_eq (X Y : FVec Ideal s .f32) : Host.divf X Y = vdiv X Y := rfl
theorem vrsqrt_eq (X : FVec Ideal s .f32) : Host.rsqrt X = vrsqrt X := rfl

/-! ## The reference -/

/-- The reference's last value is the specification's tail of its aggregated features. -/
theorem ref_mlp (x : Vec Ideal S16384x32 .f32) (a : Vec Ideal S16384x16384 .i32) (W1 : Vec Ideal S32x32 .f32) (b1 g be : Vec Ideal S32 .f32)
    (W2 : Vec Ideal S32x32 .f32) (b2 : Vec Ideal S32 .f32) (Wf : Vec Ideal S32x16 .f32) (bf : Vec Ideal S16 .f32) :
    Cert.ReferenceIdeal.Read.val_main_v44 (F := Ideal) x a W1 b1 g be W2 b2 Wf bf
      = Cert.Spec.mlp (Cert.ReferenceIdeal.Read.val_main_v2 (F := Ideal) x a) W1 b1 g be W2 b2 Wf bf := by
  simp only [
    Read.val_main_v44, Read.val_main_v43, Read.val_main_v42, Read.val_main_v41, Read.val_main_v40, Read.val_main_v39,
    Read.val_main_v38, Read.val_main_v37, Read.val_main_v36, Read.val_main_v35, Read.val_main_v34, Read.val_main_v33,
    Read.val_main_v32, Read.val_main_v31, Read.val_main_v30, Read.val_main_v29, Read.val_main_v28, Read.val_main_v27,
    Read.val_main_v26, Read.val_main_v25, Read.val_main_v24, Read.val_main_v23, Read.val_main_v22, Read.val_main_v21,
    Read.val_main_v20, Read.val_main_v19, Read.val_main_v18, Read.val_main_v17, Read.val_main_v16, Read.val_main_v15,
    Read.val_main_v14, Read.val_main_v13, Read.val_main_v12, Read.val_main_v11, Read.val_main_v10, Read.val_main_v9,
    Read.val_main_v8, Read.val_main_v7, Read.val_main_v6, Read.val_main_v5, Read.val_main_v4, Read.val_main_v3,
    Read.val_main_cst, Read.val_main_cst_0, Read.val_main_cst_1, Read.val_main_cst_2, Read.val_main_cst_3,
    Read.val_main_cst_4, Read.val_main_cst_5, Read.val_main_call0_cst, Read.val_main_call0_v0,
    Read.val_main_call1_cst, Read.val_main_call1_v0,
    splat_eq, colSum_eq, matP_rows_eq, matP_pool_eq, vadd_eq, vsub_eq, vmul_eq, vmax_eq, vdiv_eq, vrsqrt_eq]
  simp -index only [oneRow32_eq, oneRow16_eq, everyRow_eq]
  rfl

end Cert.ReferenceIdeal.HandValue

end
-- ==== Proof.Claims.lean ====
/-
  The five claims.

  Both kernel programs are two regions in a row; their frames are the run of the regions read at each argument. The
  reference is host operations only; its frame is its run with the result dropped. The ideal pass rewrote nothing, so
  the kernel's idealization is its own text read at the ideal instance. The value claim: at the ideal instance the
  kernel's result array is the tail of the network applied to the aggregation x + adjᵀ·x of its first two arguments
  (region 0's eight output blocks tile the aggregation; region 1's one block is the tail of what it finds), and the
  reference's result is the same function of arguments that agree.
-/
import proofs.«105560_j76570676953656_2_alg».proof.Defs
import proofs.«105560_j76570676953656_2_alg».proof.Proof.K.Run
import proofs.«105560_j76570676953656_2_alg».proof.Proof.KI.Run
import proofs.«105560_j76570676953656_2_alg».proof.Proof.Val.Arrays
import proofs.«105560_j76570676953656_2_alg».proof.Proof.Val.MlpKernel
import proofs.«105560_j76570676953656_2_alg».proof.Proof.Ref.Agg
import proofs.«105560_j76570676953656_2_alg».proof.Proof.Ref.MlpRef
import proofs.«105560_j76570676953656_2_alg».proof.Proof.Gen.ReferenceIdeal.Run
import proofs.«105560_j76570676953656_2_alg».proof.Proof.Gen.ReferenceIdeal.Read
import proofs.«105560_j76570676953656_2_alg».proof.Proof.Gen.Pre_finite_inputs

set_option maxRecDepth 16384

noncomputable section

namespace Cert.Proof.Claims

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array, at the ideal instance, as the specification of its arguments. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat1 (Cert.KernelIdeal.Hand.Ve1 m) c).arrAt 9 Cert.KernelIdeal.cfg1.N
      = Cert.Spec.mlp (Cert.Spec.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  rw [Cert.KernelIdeal.HandValue.mlp_array (Cert.KernelIdeal.Hand.Ve1 m) c, Cert.KernelIdeal.HandValue.mlpOut_eq,
    Cert.KernelIdeal.Hand.Ve1_main_v0 m c, Cert.KernelIdeal.HandValue.agg_array (Cert.KernelIdeal.Hand.Ve0 m) c,
    Cert.KernelIdeal.Hand.Ve1_main_arg2 m c, Cert.KernelIdeal.Hand.Ve1_main_arg3 m c, Cert.KernelIdeal.Hand.Ve1_main_arg4 m c, Cert.KernelIdeal.Hand.Ve1_main_arg5 m c, Cert.KernelIdeal.Hand.Ve1_main_arg6 m c, Cert.KernelIdeal.Hand.Ve1_main_arg7 m c, Cert.KernelIdeal.Hand.Ve1_main_arg8 m c, Cert.KernelIdeal.Hand.Ve1_main_arg9 m c]

theorem algebraic : Cert.algebraic_KernelIdeal_ReferenceIdeal := by
  intro m ρ m' ρ' _ hagree
  refine ⟨fun c => Cert.Spec.mlp (Cert.Spec.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)), ?_, ?_⟩
  · exact (θ_run Cert.KernelIdeal.defs _ _).mono (fun r h c => ⟨(h c).1.trans (kernel_value m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v44_eq, Cert.ReferenceIdeal.HandValue.ref_mlp, Cert.ReferenceIdeal.HandValue.ref_agg,
      a0, a1, a2, a3, a4, a5, a6, a7, a8, a9]

end Cert.Proof.Claims

end
-- ==== Proof.lean ====
/- The proof of `Cert.Claim`: the witnesses of the three programs' and the precondition's stated facts, then the five
   claims of Proof/Claims.lean — the two kernel programs' frames (two regions run in a row), the reference's frame (its
   run), the idealization (nothing was rewritten) and the equality of results over the extended reals. -/
import proofs.«105560_j76570676953656_2_alg».proof.Defs
import proofs.«105560_j76570676953656_2_alg».proof.Proof.Gen.Kernel
import proofs.«105560_j76570676953656_2_alg».proof.Proof.Gen.KernelIdeal
import proofs.«105560_j76570676953656_2_alg».proof.Proof.Gen.ReferenceIdeal
import proofs.«105560_j76570676953656_2_alg».proof.Proof.Gen.Pre_finite_inputs
import proofs.«105560_j76570676953656_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
